-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S32000x4096 : Shape := ⟨2, ![32000, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32000x4096 : S_.BroadcastsInDim S32000x4096 (![] : Fin 0 → Fin S32000x4096.rank)
  reducesTo_S32000x4096_S_d0_1 : S32000x4096.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg2 : IVec S8192 32) (main_v12 : IVec S_ 1) (main_v14 : IVec S8192 1) (main_v15 : IVec S8192 32) : IVec S_ 1 :=
  let main_v16 : IVec S8192 1 := cmpi .eq main_arg2 main_v15
  let main_v17 : IVec S8192 1 := ori main_v14 main_v16
  let main_c_6 : IVec S_ 1 := constantI S_ 1 1#1
  let main_v18 : IVec S_ 1 := (fun x v => Host.reduce IntOp.andi x v reducesTo_S8192_S_d0 h_S_) main_v17 main_c_6
  let main_v19 : IVec S_ 1 := andi main_v12 main_v18
  main_v19

def fn {F : FTy → Type} [FloatOps F] (main_arg0 : FVec F S8192x4096 .f32) (main_arg1 : FVec F S32000x4096 .f32) (main_arg2 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32000x4096 .f32 := Host.absf main_arg1
  let main_cst_0 : FVec F S_ .f32 := constant S_ .f32 0x7F800000#32
  let main_v5 : FVec F S32000x4096 .f32 := broadcastInDim S32000x4096 ![] bcast_S_S32000x4096 main_cst_0
  let main_v6 : IVec S32000x4096 1 := cmpf .olt main_v4 main_v5
  let main_c_1 : IVec S_ 1 := constantI S_ 1 1#1
  let main_v7 : IVec S_ 1 := (fun x v => Host.reduce IntOp.andi x v reducesTo_S32000x4096_S_d0_1 h_S_) main_v6 main_c_1
  let main_v8 : IVec S_ 1 := andi main_v3 main_v7
  let main_c_2 : IVec S_ 32 := constantI S_ 32 32000#32
  let main_v9 : IVec S8192 32 := broadcastInDim S8192 ![] bcast_S_S8192 main_c_2
  let main_v10 : IVec S8192 1 := cmpi .slt main_arg2 main_v9
  let main_c_3 : IVec S_ 1 := constantI S_ 1 1#1
  let main_v11 : IVec S_ 1 := (fun x v => Host.reduce IntOp.andi x v reducesTo_S8192_S_d0 h_S_) main_v10 main_c_3
  let main_v12 : IVec S_ 1 := andi main_v8 main_v11
  let main_c_4 : IVec S_ 32 := constantI S_ 32 0#32
  let main_v13 : IVec S8192 32 := broadcastInDim S8192 ![] bcast_S_S8192 main_c_4
  let main_v14 : IVec S8192 1 := cmpi .sge main_arg2 main_v13
  let main_c_5 : IVec S_ 32 := constantI S_ 32 4294967196#32
  let main_v15 : IVec S8192 32 := broadcastInDim S8192 ![] bcast_S_S8192 main_c_5
  fn_part1 (F := F) main_arg2 main_v12 main_v14 main_v15
-- ==== Kernel.lean ====
abbrev S8192x4096 : Shape := ⟨2, ![8192, 4096]⟩
abbrev S32000x4096 : Shape := ⟨2, ![32000, 4096]⟩
abbrev S8192 : Shape := ⟨1, ![8192]⟩
abbrev S_ : Shape := ⟨0, ![]⟩
abbrev S8192x1 : Shape := ⟨2, ![8192, 1]⟩
abbrev S1024x4096 : Shape := ⟨2, ![1024, 4096]⟩
abbrev S640x4096 : Shape := ⟨2, ![640, 4096]⟩
abbrev S1024x1 : Shape := ⟨2, ![1024, 1]⟩
abbrev S1024x640 : Shape := ⟨2, ![1024, 640]⟩
abbrev S1x640 : Shape := ⟨2, ![1, 640]⟩
abbrev S1024 : Shape := ⟨1, ![1024]⟩

abbrev nBuf : Space → Nat
  | .hbm => 36
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S32000x4096, .f32⟩
  | .hbm, ⟨2, _⟩ => ⟨S8192, .i32⟩
  | .hbm, ⟨3, _⟩ => ⟨S8192x4096, .bf16⟩
  | .hbm, ⟨4, _⟩ => ⟨S32000x4096, .bf16⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S8192x1, .f32⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1024x4096, .bf16⟩
  | .local _ .vmem, ⟨1, _⟩ => ⟨S1024x4096, .bf16⟩
  | .local _ .vmem, ⟨2, _⟩ => ⟨S640x4096, .bf16⟩
  | .local _ .vmem, ⟨3, _⟩ => ⟨S640x4096, .bf16⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_c_1 : Ref sig .tc := ⟨.hbm, 12, rfl⟩
abbrev main_c_2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_call2_v0 : Ref sig .tc := ⟨.hbm, 24, rfl⟩
abbrev main_call2_v1 : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_c_4 : Ref sig .tc := ⟨.hbm, 30, rfl⟩
abbrev main_v12 : Ref sig .tc := ⟨.hbm, 31, rfl⟩
abbrev main_cst_5 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 50], ![false, false]⟩

def k0_cond2 (i : grid0.Coords) : BitVec 1 :=
  let arg1 : BitVec 32 := BitVec.ofNat 32 (i 1).val
  let c49_i32 : BitVec 32 := 49#32
  let v47 : BitVec 1 := Scalar.cmpi .eq arg1 c49_i32
  let v48 : BitVec 32 := Scalar.extui v47
  let c0_i32_24 : BitVec 32 := 0#32
  let v49 : BitVec 1 := Scalar.cmpi .ne v48 c0_i32_24
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  bcast_S_S8192 : S_.BroadcastsInDim S8192 (![] : Fin 0 → Fin S8192.rank)
  shapeCasts_S8192_S8192x1 : S8192.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S640x4096_S640x4096_0_0 : ∀ a, (![0, 0] : Fin 2 → Nat) a + S640x4096.size a ≤ S640x4096.size a
  h_S640x4096 : 0 < S640x4096.numel
  shapeCasts_S640x4096_S640x4096 : S640x4096.ShapeCasts S640x4096
  iota_S1x640_d1_w32 : S1x640.Iotas .tc 32 [1]
  broadcasts_S1x640_S1024x640 : S1x640.Broadcasts S1024x640
  broadcasts_S1024x1_S1024x640 : S1024x1.Broadcasts S1024x640
  reduces_S1024x640_S1024 : S1024x640.Reduces [1] S1024
  shapeCasts_S1024_S1024x1 : S1024.ShapeCasts S1024x1
  shapeCasts_S8192x1_S8192 : S8192x1.ShapeCasts S8192
  natLt_1_32 : 1 < 32
  reducesTo_S8192_S_d0 : S8192.ReducesTo [0] S_
  h_S_ : 0 < S_.numel
  dot_S1024x4096_S640x4096_S1024x640_1_1_0_0_n_n_wf : DotDims.WF S1024x4096 S640x4096 S1024x640 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x4096.size a ≤ S32000x4096.size a
  hwx0_1 : ∀ i : grid0.Coords, EltTy.bits .bf16 = 32 ∨ (Rect.block (s := S32000x4096) S640x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def dot_S1024x4096_S640x4096_S1024x640_1_1_0_0_n_n : DotDims S1024x4096 S640x4096 S1024x640 where
  lhsContracting := [1]
  rhsContracting := [1]
  lhsNonContracting := [0]
  rhsNonContracting := [0]
  lhsBatch := []
  rhsBatch := []
  wf := dot_S1024x4096_S640x4096_S1024x640_1_1_0_0_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S640x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S32000x4096 : Shape := ⟨2, ![32000, 4096]⟩
abbrev S8192 : Shape := ⟨1, ![8192]⟩
abbrev S8192x32000 : Shape := ⟨2, ![8192, 32000]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S32000x4096, .f32⟩
  | .hbm, ⟨2, _⟩ => ⟨S8192, .i32⟩
  | .hbm, ⟨3, _⟩ => ⟨S8192x32000, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x32000, .f32⟩
  | .hbm, ⟨11, _⟩ => ⟨S8192x32000, .f32⟩
  | .hbm, ⟨12, _⟩ => ⟨S8192x32000, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S8192x32000, .f32⟩
  | .hbm, ⟨18, _⟩ => ⟨S8192x32000, .f32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S_, .i32⟩
  | .hbm, ⟨28, _⟩ => ⟨S8192x1, .i32⟩
  | .hbm, ⟨29, _⟩ => ⟨S8192x1, .i1⟩
  | .hbm, ⟨30, _⟩ => ⟨S_, .i32⟩
  | .hbm, ⟨31, _⟩ => ⟨S8192x1, .i32⟩
  | .hbm, ⟨32, _⟩ => ⟨S8192x1, .i32⟩
  | .hbm, ⟨33, _⟩ => ⟨S8192x1, .i32⟩
  | .hbm, ⟨34, _⟩ => ⟨S8192x1x1, .i32⟩
  | .hbm, ⟨35, _⟩ => ⟨S1, .i32⟩
  | .hbm, ⟨36, _⟩ => ⟨S_, .i32⟩
  | .hbm, ⟨37, _⟩ => ⟨S8192x1x1, .i32⟩
  | .hbm, ⟨38, _⟩ => ⟨S8192x1x1, .i1⟩
  | .hbm, ⟨39, _⟩ => ⟨S1x1x1, .i32⟩
  | .hbm, ⟨40, _⟩ => ⟨S8192x1x1, .i32⟩
  | .hbm, ⟨41, _⟩ => ⟨S8192x1x1, .i1⟩
  | .hbm, ⟨42, _⟩ => ⟨S8192x1x1, .i1⟩
  | .hbm, ⟨43, _⟩ => ⟨S_, .i1⟩
  | .hbm, ⟨44, _⟩ => ⟨S8192x1, .i1⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_v4 : Ref sig .tc := ⟨.hbm, 25, rfl⟩
abbrev main_v5 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_cst : Ref sig .tc := ⟨.hbm, 51, rfl⟩
abbrev main_call3_v0 : Ref sig .tc := ⟨.hbm, 52, rfl⟩
abbrev main_call3_v1 : Ref sig .tc := ⟨.hbm, 53, rfl⟩
abbrev main_v9 : Ref sig .tc := ⟨.hbm, 54, rfl⟩
abbrev main_v10 : Ref sig .tc := ⟨.hbm, 55, rfl⟩
abbrev main_c_1 : Ref sig .tc := ⟨.hbm, 56, rfl⟩
abbrev main_v11 : Ref sig .tc := ⟨.hbm, 57, rfl⟩
abbrev main_c_2 : Ref sig .tc := ⟨.hbm, 58, rfl⟩
abbrev main_v12 : Ref sig .tc := ⟨.hbm, 59, rfl⟩
abbrev main_cst_3 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  natLt_1_32 : 1 < 32
  reducesTo_S8192_S_d0 : S8192.ReducesTo [0] S_
  dot_S8192x4096_S32000x4096_S8192x32000_1_1_0_0_n_n_wf : DotDims.WF S8192x4096 S32000x4096 S8192x32000 [1] [1] [0] [0] [] []
  gather_S8192x32000_S8192x1x1_S8192x1_n_1_0_0_1_2_11_wf : GatherDims.WF S8192x32000 S8192x1x1 S8192x1 [] [1] [0] [1] [0] 2 ![1, 1]

variable [Facts₀]

def dot_S8192x4096_S32000x4096_S8192x32000_1_1_0_0_n_n : DotDims S8192x4096 S32000x4096 S8192x32000 where
  lhsContracting := [1]
  rhsContracting := [1]
  lhsNonContracting := [0]
  rhsNonContracting := [0]
  lhsBatch := []
  rhsBatch := []
  wf := dot_S8192x4096_S32000x4096_S8192x32000_1_1_0_0_n_n_wf
def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.Spec.lean ====
/-
  What both programs compute, row by row, when every input entry is a real number and every label
  is a class below 32000 or the ignore label.

  Row n of the input has the real score sigma_v = sum_h x[n,h] w[v,h] against class v. The label
  word t picks the class cls t: class 0 for the ignore label -100 (whose row the mean then masks
  out), the label itself otherwise. The row's loss is log (sum_v e^(sigma_v)) - sigma_(cls t): the
  negated log-probability of the chosen class under the softmax of the row's scores.
-/
import Mathlib.Analysis.SpecialFunctions.Log.Basic
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![8192, 4096]⟩
abbrev SW : Shape := ⟨2, ![32000, 4096]⟩
abbrev ST : Shape := ⟨1, ![8192]⟩

/-- Every entry is a real number. -/
def AllReal {s : Shape} (x : s.Idx → EReal) : Prop := ∀ i, ∃ r : ℝ, x i = (r : EReal)

/-- Every label is below 32000 and is non-negative or the ignore label (signed reading). -/
def LabelsOk (tg : ST.Idx → BitVec 32) : Prop :=
  ∀ n, (tg n).toInt < 32000 ∧ (0 ≤ (tg n).toInt ∨ tg n = 4294967196#32)

/-- The real score of row `n` against class `v` (zero past the last class). -/
def sigma (x : SX.Idx → EReal) (w : SW.Idx → EReal) (n : Fin 8192) (v : ℕ) : ℝ :=
  if h : v < 32000 then ∑ k : Fin 4096, (x (ix2 n k)).toReal * (w (ix2 ⟨v, h⟩ k)).toReal else 0

/-- The class a label word picks: 0 for the ignore label, the label otherwise. -/
def cls (t : BitVec 32) : ℕ := if t = 4294967196#32 then 0 else t.toNat

/-- The row's loss. -/
def rowLoss (x : SX.Idx → EReal) (w : SW.Idx → EReal) (tg : ST.Idx → BitVec 32) (n : Fin 8192) : EReal :=
  ((Real.log (∑ v ∈ Finset.range 32000, Real.exp (sigma x w n v)) - sigma x w n (cls (tg (ix1 n))) : ℝ) : EReal)

/-- Under `LabelsOk` the chosen class is a class. -/
theorem cls_lt {tg : ST.Idx → BitVec 32} (h : LabelsOk tg) (n : ST.Idx) : cls (tg n) < 32000 := by
  unfold cls
  split
  · norm_num
  · rename_i hne
    obtain ⟨hlt, hge | he⟩ := h n
    · have h1 := BitVec.toInt_eq_toNat_cond (tg n)
      have h2 := (tg n).isLt
      split_ifs at h1 <;> omega
    · exact absurd he hne

end Cert.Spec

end
-- ==== Proof.PreFacts.lean ====
/-
  What the precondition says of the inputs: every entry of the two float inputs is a real number,
  and every label is below 32000 and is non-negative or the ignore label.
-/
import proofs.«421169_j4887672783289_3_alg».proof.Pre_finite_inputs
import proofs.«421169_j4887672783289_3_alg».proof.Proof.Spec
import Idealize.ShloMosaic.Lib.ReduceAll

noncomputable section

namespace Cert.PreFacts

open Idealize.ShloMosaic

/-- The shape of rank zero has exactly one index. -/
local instance subsingletonScalarIdx : Subsingleton Cert.Pre_finite_inputs.S_.Idx :=
  ⟨fun a b => funext fun d => d.elim0⟩

/-- An extended real whose absolute value lies strictly below the word of +∞ is a real number:
    that word reads as ⊤, and of ⊥, ⊤ and the coerced reals only the last have `max x (-x) < ⊤`. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One element of the mask `|x| < +∞`, the bound a scalar constant broadcast to the array's shape. -/
theorem real_of_mask {s : Shape} (x : FVec Ideal s .f32) (hb : Cert.Pre_finite_inputs.S_.BroadcastsInDim s ![]) (i : s.Idx)
    (e : cmpf .olt (Host.absf x)
      (broadcastInDim s ![] hb (constant Cert.Pre_finite_inputs.S_ .f32 0x7F800000#32)) i = 1#1) :
    ∃ r : ℝ, x i = (r : EReal) := by
  have e' : Ideal.cmp .olt (max (x i) (-(x i))) (Ideal.ofBits .f32 0x7F800000#32) = 1#1 := by
    first
      | exact e
      | (simp only [cmpf, Host.absf, broadcastInDim, constant] at e; exact e)
      | (simpa [cmpf, Host.absf, broadcastInDim, constant] using e)
  exact real_of_abs_lt_inf (x i) e'

/-- An elementwise `and` of two one-bit arrays is 1 at an index where both are. -/
theorem andi_split {s : Shape} {a b : IVec s 1} {i : s.Idx} (e : andi a b i = 1#1) : a i = 1#1 ∧ b i = 1#1 :=
  IntOp.andi_eq_one.1 e

/-- An elementwise `or` of two one-bit arrays is 1 at an index where one of them is. -/
theorem ori_split {s : Shape} {a b : IVec s 1} {i : s.Idx} (e : ori a b i = 1#1) : a i = 1#1 ∨ b i = 1#1 :=
  IntOp.ori_eq_one.1 e

/-- A comparison of an array with a broadcast scalar constant compares each element with the constant. -/
theorem cmpi_bcast {s : Shape} (p : CmpIPredicate) (x : IVec s 32) (hb : Cert.Pre_finite_inputs.S_.BroadcastsInDim s ![])
    (c : BitVec 32) (i : s.Idx) :
    cmpi p x (broadcastInDim s ![] hb (constantI Cert.Pre_finite_inputs.S_ 32 c)) i = IntOp.cmpi p (x i) c := rfl

theorem toInt_32000 : (32000#32 : BitVec 32).toInt = 32000 := by
  first | decide | rfl | simp

theorem toInt_zero : (0#32 : BitVec 32).toInt = 0 := by
  first | decide | rfl | simp

theorem facts_of_pre [Cert.Pre_finite_inputs.Facts]
    (x0 : FVec Ideal Cert.Pre_finite_inputs.S8192x4096 .f32) (x1 : FVec Ideal Cert.Pre_finite_inputs.S32000x4096 .f32)
    (x2 : IVec Cert.Pre_finite_inputs.S8192 32)
    (h : Cert.Pre_finite_inputs.fn (F := Ideal) x0 x1 x2 = fun _ => 1#1) :
    Cert.Spec.AllReal x0 ∧ Cert.Spec.AllReal x1 ∧ Cert.Spec.LabelsOk x2 := by
  have h0 := congrFun h ValueIdx.ix0
  dsimp only [Cert.Pre_finite_inputs.fn, Cert.Pre_finite_inputs.fn_part1] at h0
  -- the four conjuncts of the predicate, each an all-reduce by `and` that came out 1
  obtain ⟨h012, h18⟩ := andi_split h0
  obtain ⟨h01, h11⟩ := andi_split h012
  obtain ⟨h3, h7⟩ := andi_split h01
  unfold Cert.Spec.AllReal Cert.Spec.LabelsOk
  refine ⟨fun i => ?_, fun i => ?_, fun n => ⟨?_, ?_⟩⟩
  · -- every entry of the first input has |x| < +∞
    have e := Host.reduce_andi_all _ _ _ _ _ h3 i
    exact real_of_mask _ _ _ e
  · -- every entry of the second input has |x| < +∞
    have e := Host.reduce_andi_all _ _ _ _ _ h7 i
    exact real_of_mask _ _ _ e
  · -- every label is below 32000, read signed
    have e := Host.reduce_andi_all _ _ _ _ _ h11 n
    rw [cmpi_bcast] at e
    have b := IntOp.cmpi_slt.1 e
    rw [toInt_32000] at b
    exact b
  · -- every label is non-negative or is the ignore label
    have e := Host.reduce_andi_all _ _ _ _ _ h18 n
    rcases ori_split e with e | e
    · left
      rw [cmpi_bcast] at e
      have b := IntOp.cmpi_sge.1 e
      rw [toInt_zero] at b
      exact b
    · right
      rw [cmpi_bcast] at e
      exact IntOp.cmpi_eq.1 e

end Cert.PreFacts

end
-- ==== Proof.KPieces.lean ====
/-
  What each of the kernel body's three cases leaves in the three carried scratch buffers and in the
  output block, as pure functions of the point's input blocks and of what the scratches held before.

  The body at a vocabulary tile: (first tile only) reset the running maximum to -inf and the
  normaliser and the chosen-class score to zero; then from the tile's scores s = x w^T it replaces the
  maximum m by m' = max m (rowmax s), the normaliser l by l e^(m - m') + rowsum e^(s - m'), and adds to
  the chosen-class score the row sum of s under the mask "this column's class number is the row's
  label"; (last tile only) it stores (m' + log l') - score into the output block.
-/
import proofs.«421169_j4887672783289_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Rows

open Cert.KernelIdeal Cert.KernelIdeal.Gen

variable {F : FTy → Type} [FloatOps F]

theorem hz : (![0, 0] : Fin 2 → Nat) = fun _ => 0 := funext fun a => by fin_cases a <;> rfl

/-- The new running maximum from the old one `p0`. -/
abbrev newMax (x0 : Vec F S1024x4096 .bf16) (x1 : Vec F S640x4096 .bf16) (p0 : Vec F S1024x1 .f32) : Vec F S1024x1 .f32 :=
  k0_pay2 (k0_pay9 x0 x1 p0)

/-- The new normaliser from the old maximum `p0` and the old normaliser `p1`. -/
abbrev newSum (x0 : Vec F S1024x4096 .bf16) (x1 : Vec F S640x4096 .bf16) (p0 p1 : Vec F S1024x1 .f32) : Vec F S1024x1 .f32 :=
  k0_pay1 (k0_pay10 x0 x1 p0 p0) (k0_pay11 x0 x1 p0) p1

/-- The new chosen-class score from the old one `p2`. -/
abbrev newTgt (i : grid0.Coords) (x0 : Vec F S1024x4096 .bf16) (x1 : Vec F S640x4096 .bf16) (x2 : Vec F S1024x1 .i32)
    (p2 : Vec F S1024x1 .f32) : Vec F S1024x1 .f32 :=
  k0_pay8 i x0 x1 x2 p2

section pieces

variable (c : Dev nD) (i : grid0.Coords)
  (a2 : Memref sig .tc .vmem S1024x4096 .bf16) (h2 : a2.IsWhole) (a3 : Memref sig .tc .vmem S640x4096 .bf16) (h3 : a3.IsWhole)
  (a4 : Memref sig .tc .vmem S1024x1 .i32) (h4 : a4.IsWhole) (a5 : Memref sig .tc .vmem S1024x1 .f32) (h5 : a5.IsWhole)
  (a6 : Memref sig .tc .vmem S1024x1 .f32) (h6 : a6.IsWhole) (a7 : Memref sig .tc .vmem S1024x1 .f32) (h7 : a7.IsWhole)
  (a8 : Memref sig .tc .vmem S1024x1 .f32) (h8 : a8.IsWhole)
  (x0 : Vec F S1024x4096 .bf16) (x1 : Vec F S640x4096 .bf16) (x2 : Vec F S1024x1 .i32)

/-- The first tile: the maximum, from the reset values. -/
theorem sA_0 (hc0 : cond0_0 i) (hc1 : ¬cond0_1 i) :
    sout0_A_0 c i a2 h2 a3 h3 a4 h4 a5 h5 a6 h6 a7 h7 a8 h8 hc0 hc1 x0 x1 x2 = newMax x0 x1 k0_pay4 := by
  unfold sout0_A_0
  rw [View.read_writes_eq_canon _ _ _ (scover0_A_0 c i a2 h2 a3 h3 a4 h4 a5 h5 a6 h6 a7 h7 a8 h8 hc0 hc1 x0 x1 x2)]
  unfold kernelRun0_A
  dsimp only
  sl_unfold_words
  rw [View.canon_cons_unit_zero (S := S1024x1) hz]
  simp only [View.readAt_eq_ld, h2.read_unread, h3.read_unread, h4.read_unread, h6.read_unread, h7.read_unread, h8.read_unread,
    View.ld_unit_zero (S := S1024x4096) hz, View.ld_unit_zero (S := S640x4096) hz, View.ld_unit_zero (S := S1024x1) hz,
    View.readCov_unit_zero (S := S1024x1) _ hz]

/-- The first tile: the normaliser, from the reset values. -/
theorem sA_1 (hc0 : cond0_0 i) (hc1 : ¬cond0_1 i) :
    sout0_A_1 c i a2 h2 a3 h3 a4 h4 a5 h5 a6 h6 a7 h7 a8 h8 hc0 hc1 x0 x1 x2 = newSum x0 x1 k0_pay4 k0_pay5 := by
  unfold sout0_A_1
  rw [View.read_writes_eq_canon _ _ _ (scover0_A_1 c i a2 h2 a3 h3 a4 h4 a5 h5 a6 h6 a7 h7 a8 h8 hc0 hc1 x0 x1 x2)]
  unfold kernelRun0_A
  dsimp only
  sl_unfold_words
  rw [View.canon_cons_unit_zero (S := S1024x1) hz]
  simp only [View.readAt_eq_ld, h2.read_unread, h3.read_unread, h4.read_unread, h6.read_unread, h7.read_unread, h8.read_unread,
    View.ld_unit_zero (S := S1024x4096) hz, View.ld_unit_zero (S := S640x4096) hz, View.ld_unit_zero (S := S1024x1) hz,
    View.readCov_unit_zero (S := S1024x1) _ hz]

/-- The first tile: the chosen-class score, from the reset values. -/
theorem sA_2 (hc0 : cond0_0 i) (hc1 : ¬cond0_1 i) :
    sout0_A_2 c i a2 h2 a3 h3 a4 h4 a5 h5 a6 h6 a7 h7 a8 h8 hc0 hc1 x0 x1 x2 = newTgt i x0 x1 x2 k0_pay6 := by
  unfold sout0_A_2
  rw [View.read_writes_eq_canon _ _ _ (scover0_A_2 c i a2 h2 a3 h3 a4 h4 a5 h5 a6 h6 a7 h7 a8 h8 hc0 hc1 x0 x1 x2)]
  unfold kernelRun0_A
  dsimp only
  sl_unfold_words
  rw [View.canon_cons_unit_zero (S := S1024x1) hz]
  simp only [View.readAt_eq_ld, h2.read_unread, h3.read_unread, h4.read_unread, h6.read_unread, h7.read_unread, h8.read_unread,
    View.ld_unit_zero (S := S1024x4096) hz, View.ld_unit_zero (S := S640x4096) hz, View.ld_unit_zero (S := S1024x1) hz,
    View.readCov_unit_zero (S := S1024x1) _ hz]

/-- A middle tile: the maximum. -/
theorem sB_0 (hc0 : ¬cond0_0 i) (hc1 : ¬cond0_1 i) (p0 p1 p2 : Vec F S1024x1 .f32) :
    sout0_B_0 c i a2 h2 a3 h3 a4 h4 a5 h5 a6 h6 a7 h7 a8 h8 hc0 hc1 x0 x1 x2 p0 p1 p2 = newMax x0 x1 p0 := by
  unfold sout0_B_0
  rw [View.read_writes_eq_canon _ _ _ (scover0_B_0 c i a2 h2 a3 h3 a4 h4 a5 h5 a6 h6 a7 h7 a8 h8 hc0 hc1 x0 x1 x2 p0 p1 p2)]
  unfold kernelRun0_B
  dsimp only
  sl_unfold_words
  rw [View.canon_unit_zero hz]
  simp only [View.readAt_eq_ld, h2.read_unread, h3.read_unread, h4.read_unread, h6.read_unread, h7.read_unread, h8.read_unread,
    View.ld_unit_zero (S := S1024x4096) hz, View.ld_unit_zero (S := S640x4096) hz, View.ld_unit_zero (S := S1024x1) hz,
    View.readCov_unit_zero (S := S1024x1) _ hz]

/-- A middle tile: the normaliser. -/
theorem sB_1 (hc0 : ¬cond0_0 i) (hc1 : ¬cond0_1 i) (p0 p1 p2 : Vec F S1024x1 .f32) :
    sout0_B_1 c i a2 h2 a3 h3 a4 h4 a5 h5 a6 h6 a7 h7 a8 h8 hc0 hc1 x0 x1 x2 p0 p1 p2 = newSum x0 x1 p0 p1 := by
  unfold sout0_B_1
  rw [View.read_writes_eq_canon _ _ _ (scover0_B_1 c i a2 h2 a3 h3 a4 h4 a5 h5 a6 h6 a7 h7 a8 h8 hc0 hc1 x0 x1 x2 p0 p1 p2)]
  unfold kernelRun0_B
  dsimp only
  sl_unfold_words
  rw [View.canon_unit_zero hz]
  simp only [View.readAt_eq_ld, h2.read_unread, h3.read_unread, h4.read_unread, h6.read_unread, h7.read_unread, h8.read_unread,
    View.ld_unit_zero (S := S1024x4096) hz, View.ld_unit_zero (S := S640x4096) hz, View.ld_unit_zero (S := S1024x1) hz,
    View.readCov_unit_zero (S := S1024x1) _ hz]

/-- A middle tile: the chosen-class score. -/
theorem sB_2 (hc0 : ¬cond0_0 i) (hc1 : ¬cond0_1 i) (p0 p1 p2 : Vec F S1024x1 .f32) :
    sout0_B_2 c i a2 h2 a3 h3 a4 h4 a5 h5 a6 h6 a7 h7 a8 h8 hc0 hc1 x0 x1 x2 p0 p1 p2 = newTgt i x0 x1 x2 p2 := by
  unfold sout0_B_2
  rw [View.read_writes_eq_canon _ _ _ (scover0_B_2 c i a2 h2 a3 h3 a4 h4 a5 h5 a6 h6 a7 h7 a8 h8 hc0 hc1 x0 x1 x2 p0 p1 p2)]
  unfold kernelRun0_B
  dsimp only
  sl_unfold_words
  rw [View.canon_unit_zero hz]
  simp only [View.readAt_eq_ld, h2.read_unread, h3.read_unread, h4.read_unread, h6.read_unread, h7.read_unread, h8.read_unread,
    View.ld_unit_zero (S := S1024x4096) hz, View.ld_unit_zero (S := S640x4096) hz, View.ld_unit_zero (S := S1024x1) hz,
    View.readCov_unit_zero (S := S1024x1) _ hz]

/-- The last tile: the maximum. -/
theorem sC_0 (hc0 : ¬cond0_0 i) (hc1 : cond0_1 i) (p0 p1 p2 : Vec F S1024x1 .f32) :
    sout0_C_0 c i a2 h2 a3 h3 a4 h4 a5 h5 a6 h6 a7 h7 a8 h8 hc0 hc1 x0 x1 x2 p0 p1 p2 = newMax x0 x1 p0 := by
  unfold sout0_C_0
  rw [View.read_writes_eq_canon _ _ _ (scover0_C_0 c i a2 h2 a3 h3 a4 h4 a5 h5 a6 h6 a7 h7 a8 h8 hc0 hc1 x0 x1 x2 p0 p1 p2)]
  unfold kernelRun0_C
  dsimp only
  sl_unfold_words
  rw [View.canon_unit_zero hz]
  simp only [View.readAt_eq_ld, h2.read_unread, h3.read_unread, h4.read_unread, h6.read_unread, h7.read_unread, h8.read_unread,
    View.ld_unit_zero (S := S1024x4096) hz, View.ld_unit_zero (S := S640x4096) hz, View.ld_unit_zero (S := S1024x1) hz,
    View.readCov_unit_zero (S := S1024x1) _ hz]

/-- The last tile: the normaliser. -/
theorem sC_1 (hc0 : ¬cond0_0 i) (hc1 : cond0_1 i) (p0 p1 p2 : Vec F S1024x1 .f32) :
    sout0_C_1 c i a2 h2 a3 h3 a4 h4 a5 h5 a6 h6 a7 h7 a8 h8 hc0 hc1 x0 x1 x2 p0 p1 p2 = newSum x0 x1 p0 p1 := by
  unfold sout0_C_1
  rw [View.read_writes_eq_canon _ _ _ (scover0_C_1 c i a2 h2 a3 h3 a4 h4 a5 h5 a6 h6 a7 h7 a8 h8 hc0 hc1 x0 x1 x2 p0 p1 p2)]
  unfold kernelRun0_C
  dsimp only
  sl_unfold_words
  rw [View.canon_unit_zero hz]
  simp only [View.readAt_eq_ld, h2.read_unread, h3.read_unread, h4.read_unread, h6.read_unread, h7.read_unread, h8.read_unread,
    View.ld_unit_zero (S := S1024x4096) hz, View.ld_unit_zero (S := S640x4096) hz, View.ld_unit_zero (S := S1024x1) hz,
    View.readCov_unit_zero (S := S1024x1) _ hz]

/-- The last tile: the chosen-class score. -/
theorem sC_2 (hc0 : ¬cond0_0 i) (hc1 : cond0_1 i) (p0 p1 p2 : Vec F S1024x1 .f32) :
    sout0_C_2 c i a2 h2 a3 h3 a4 h4 a5 h5 a6 h6 a7 h7 a8 h8 hc0 hc1 x0 x1 x2 p0 p1 p2 = newTgt i x0 x1 x2 p2 := by
  unfold sout0_C_2
  rw [View.read_writes_eq_canon _ _ _ (scover0_C_2 c i a2 h2 a3 h3 a4 h4 a5 h5 a6 h6 a7 h7 a8 h8 hc0 hc1 x0 x1 x2 p0 p1 p2)]
  unfold kernelRun0_C
  dsimp only
  sl_unfold_words
  rw [View.canon_unit_zero hz]
  simp only [View.readAt_eq_ld, h2.read_unread, h3.read_unread, h4.read_unread, h6.read_unread, h7.read_unread, h8.read_unread,
    View.ld_unit_zero (S := S1024x4096) hz, View.ld_unit_zero (S := S640x4096) hz, View.ld_unit_zero (S := S1024x1) hz,
    View.readCov_unit_zero (S := S1024x1) _ hz]

/-- The last tile: the output block, from the three scratches as the tile leaves them. -/
theorem oC_3 (hc0 : ¬cond0_0 i) (hc1 : cond0_1 i) (p0 p1 p2 : Vec F S1024x1 .f32) :
    out0_C_3 c i a2 h2 a3 h3 a4 h4 a5 h5 a6 h6 a7 h7 a8 h8 hc0 hc1 x0 x1 x2 p0 p1 p2
      = k0_pay3 (newMax x0 x1 p0) (newSum x0 x1 p0 p1) (newTgt i x0 x1 x2 p2) := by
  unfold out0_C_3
  rw [View.read_writes_eq_canon _ _ _ (cover0_C_3 c i a2 h2 a3 h3 a4 h4 a5 h5 a6 h6 a7 h7 a8 h8 hc0 hc1 x0 x1 x2 p0 p1 p2)]
  unfold kernelRun0_C
  dsimp only
  sl_unfold_words
  rw [View.canon_unit_zero hz]
  simp only [View.readAt_eq_ld, h2.read_unread, h3.read_unread, h4.read_unread, h6.read_unread, h7.read_unread, h8.read_unread,
    View.ld_unit_zero (S := S1024x4096) hz, View.ld_unit_zero (S := S640x4096) hz, View.ld_unit_zero (S := S1024x1) hz,
    View.readCov_unit_zero (S := S1024x1) _ hz]

end pieces

end Cert.KernelIdeal.Rows

end
-- ==== Proof.KBlk.lean ====
/-
  Names for the three input blocks a grid point's body reads, at their literal types: rows of the
  input, rows of the weight, and the rows' labels.
-/
import proofs.«421169_j4887672783289_3_alg».proof.Proof.Gen.KernelIdeal.Frame

noncomputable section

namespace Cert.KernelIdeal.Rows

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The input block at point `t`: 1024 rows of the (cast) input. -/
abbrev xb (c : Dev nD) (t : Fin cfg0.N) : Vec F S1024x4096 .bf16 := iblk m c 0 t
/-- The weight block at point `t`: 640 rows of the (cast) weight. -/
abbrev wb (c : Dev nD) (t : Fin cfg0.N) : Vec F S640x4096 .bf16 := iblk m c 1 t
/-- The label block at point `t`: the clamped labels of the input block's 1024 rows. -/
abbrev tb (c : Dev nD) (t : Fin cfg0.N) : Vec F S1024x1 .i32 := iblk m c 2 t

end Cert.KernelIdeal.Rows

end
-- ==== Proof.KScratch.lean ====
/-
  The three carried scratch buffers after every grid point, as a recursion over the points.

  A row tile's first vocabulary tile starts from the reset values (-inf, 0, 0); every later tile of the
  row tile updates what the point before left. After the last vocabulary tile of a row tile the output
  block holds the epilogue of the three scratches as that tile leaves them.
-/
import proofs.«421169_j4887672783289_3_alg».proof.Proof.KPieces
import proofs.«421169_j4887672783289_3_alg».proof.Proof.KBlk

noncomputable section

open Idealize.ShloMosaic Idealize.ShloMosaic.TcCoe Idealize.SL.Sem

namespace Cert.KernelIdeal.Rows

open Cert.KernelIdeal Cert.KernelIdeal.Gen

variable {F : FTy → Type} [FloatOps F]
variable (m : (ℓ : Loc nD τ sig) → Buf (Elt F) ℓ)

/-- The running maximum, the normaliser and the chosen-class score of a row tile's 1024 rows. -/
abbrev Trip (F : FTy → Type) [FloatOps F] : Type := Vec F S1024x1 .f32 × Vec F S1024x1 .f32 × Vec F S1024x1 .f32

/-- The scratches after the first vocabulary tile of a row tile: the update of the reset values. -/
abbrev first (c : Dev nD) (t : Fin cfg0.N) : Trip F :=
  (newMax (xb m c t) (wb m c t) k0_pay4, newSum (xb m c t) (wb m c t) k0_pay4 k0_pay5,
    newTgt (grid0.coords t) (xb m c t) (wb m c t) (tb m c t) k0_pay6)

/-- The scratches after a later vocabulary tile: the update of what the point before left. -/
abbrev next (c : Dev nD) (t : Fin cfg0.N) (p : Trip F) : Trip F :=
  (newMax (xb m c t) (wb m c t) p.1, newSum (xb m c t) (wb m c t) p.1 p.2.1,
    newTgt (grid0.coords t) (xb m c t) (wb m c t) (tb m c t) p.2.2)

/-- The scratches after point `n`. -/
def st (c : Dev nD) : (n : ℕ) → n < cfg0.N → Trip F
  | 0, h => first m c ⟨0, h⟩
  | n + 1, h => if (n + 1) % 50 = 0 then first m c ⟨n + 1, h⟩ else next m c ⟨n + 1, h⟩ (st c n (Nat.lt_of_succ_lt h))

theorem st_zero (c : Dev nD) (h : 0 < cfg0.N) : st m c 0 h = first m c ⟨0, h⟩ := rfl

theorem st_first (c : Dev nD) (n : ℕ) (h : n + 1 < cfg0.N) (h0 : (n + 1) % 50 = 0) :
    st m c (n + 1) h = first m c ⟨n + 1, h⟩ := by
  rw [st, if_pos h0]

theorem st_next (c : Dev nD) (n : ℕ) (h : n + 1 < cfg0.N) (h0 : ¬(n + 1) % 50 = 0) :
    st m c (n + 1) h = next m c ⟨n + 1, h⟩ (st m c n (Nat.lt_of_succ_lt h)) := by
  rw [st, if_neg h0]

/-! ### Each scratch component after each kind of point -/

theorem scrA_0 (c : Dev nD) (t : Fin cfg0.N) (h0 : t.val % 50 = 0) (h1 : ¬t.val % 50 = 49) :
    (outsAt0 m c t.val t.isLt).2.1 = newMax (xb m c t) (wb m c t) k0_pay4 := by
  rw [outsAt0_A m c t h0 h1]
  dsimp only
  exact sA_0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) ((hcond0_0 t).mpr h0) (fun h => h1 ((hcond0_1 t).mp h))

theorem scrA_1 (c : Dev nD) (t : Fin cfg0.N) (h0 : t.val % 50 = 0) (h1 : ¬t.val % 50 = 49) :
    (outsAt0 m c t.val t.isLt).2.2.1 = newSum (xb m c t) (wb m c t) k0_pay4 k0_pay5 := by
  rw [outsAt0_A m c t h0 h1]
  dsimp only
  exact sA_1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) ((hcond0_0 t).mpr h0) (fun h => h1 ((hcond0_1 t).mp h))

theorem scrA_2 (c : Dev nD) (t : Fin cfg0.N) (h0 : t.val % 50 = 0) (h1 : ¬t.val % 50 = 49) :
    (outsAt0 m c t.val t.isLt).2.2.2 = newTgt (grid0.coords t) (xb m c t) (wb m c t) (tb m c t) k0_pay6 := by
  rw [outsAt0_A m c t h0 h1]
  dsimp only
  exact sA_2 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) ((hcond0_0 t).mpr h0) (fun h => h1 ((hcond0_1 t).mp h))

theorem scrB_0 (c : Dev nD) (t : Fin cfg0.N) (h0 : ¬t.val % 50 = 0) (h1 : ¬t.val % 50 = 49) :
    (outsAt0 m c t.val t.isLt).2.1 = newMax (xb m c t) (wb m c t) (outsAt0 m c (t.val - 1) (Nat.lt_of_le_of_lt (Nat.sub_le _ _) t.isLt)).2.1 := by
  rw [outsAt0_B m c t h0 h1]
  dsimp only
  exact sB_0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem scrB_1 (c : Dev nD) (t : Fin cfg0.N) (h0 : ¬t.val % 50 = 0) (h1 : ¬t.val % 50 = 49) :
    (outsAt0 m c t.val t.isLt).2.2.1 = newSum (xb m c t) (wb m c t) (outsAt0 m c (t.val - 1) (Nat.lt_of_le_of_lt (Nat.sub_le _ _) t.isLt)).2.1 (outsAt0 m c (t.val - 1) (Nat.lt_of_le_of_lt (Nat.sub_le _ _) t.isLt)).2.2.1 := by
  rw [outsAt0_B m c t h0 h1]
  dsimp only
  exact sB_1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem scrB_2 (c : Dev nD) (t : Fin cfg0.N) (h0 : ¬t.val % 50 = 0) (h1 : ¬t.val % 50 = 49) :
    (outsAt0 m c t.val t.isLt).2.2.2 = newTgt (grid0.coords t) (xb m c t) (wb m c t) (tb m c t) (outsAt0 m c (t.val - 1) (Nat.lt_of_le_of_lt (Nat.sub_le _ _) t.isLt)).2.2.2 := by
  rw [outsAt0_B m c t h0 h1]
  dsimp only
  exact sB_2 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem scrC_0 (c : Dev nD) (t : Fin cfg0.N) (h0 : ¬t.val % 50 = 0) (h1 : t.val % 50 = 49) :
    (outsAt0 m c t.val t.isLt).2.1 = newMax (xb m c t) (wb m c t) (outsAt0 m c (t.val - 1) (Nat.lt_of_le_of_lt (Nat.sub_le _ _) t.isLt)).2.1 := by
  rw [outsAt0_C m c t h0 h1]
  dsimp only
  exact sC_0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem scrC_1 (c : Dev nD) (t : Fin cfg0.N) (h0 : ¬t.val % 50 = 0) (h1 : t.val % 50 = 49) :
    (outsAt0 m c t.val t.isLt).2.2.1 = newSum (xb m c t) (wb m c t) (outsAt0 m c (t.val - 1) (Nat.lt_of_le_of_lt (Nat.sub_le _ _) t.isLt)).2.1 (outsAt0 m c (t.val - 1) (Nat.lt_of_le_of_lt (Nat.sub_le _ _) t.isLt)).2.2.1 := by
  rw [outsAt0_C m c t h0 h1]
  dsimp only
  exact sC_1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem scrC_2 (c : Dev nD) (t : Fin cfg0.N) (h0 : ¬t.val % 50 = 0) (h1 : t.val % 50 = 49) :
    (outsAt0 m c t.val t.isLt).2.2.2 = newTgt (grid0.coords t) (xb m c t) (wb m c t) (tb m c t) (outsAt0 m c (t.val - 1) (Nat.lt_of_le_of_lt (Nat.sub_le _ _) t.isLt)).2.2.2 := by
  rw [outsAt0_C m c t h0 h1]
  dsimp only
  exact sC_2 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- A point that starts a row tile: the scratches are the first step's. -/
theorem scrA (c : Dev nD) (t : Fin cfg0.N) (h0 : t.val % 50 = 0) (h1 : ¬t.val % 50 = 49) :
    (outsAt0 m c t.val t.isLt).2 = first m c t :=
  Prod.ext (scrA_0 m c t h0 h1) (Prod.ext (scrA_1 m c t h0 h1) (scrA_2 m c t h0 h1))

/-- A middle point: the scratches are the next step's, of what the point before left. -/
theorem scrB (c : Dev nD) (t : Fin cfg0.N) (h0 : ¬t.val % 50 = 0) (h1 : ¬t.val % 50 = 49) :
    (outsAt0 m c t.val t.isLt).2 = next m c t (outsAt0 m c (t.val - 1) (Nat.lt_of_le_of_lt (Nat.sub_le _ _) t.isLt)).2 :=
  Prod.ext (scrB_0 m c t h0 h1) (Prod.ext (scrB_1 m c t h0 h1) (scrB_2 m c t h0 h1))

/-- A point that ends a row tile: the scratches are again the next step's … -/
theorem scrC (c : Dev nD) (t : Fin cfg0.N) (h0 : ¬t.val % 50 = 0) (h1 : t.val % 50 = 49) :
    (outsAt0 m c t.val t.isLt).2 = next m c t (outsAt0 m c (t.val - 1) (Nat.lt_of_le_of_lt (Nat.sub_le _ _) t.isLt)).2 :=
  Prod.ext (scrC_0 m c t h0 h1) (Prod.ext (scrC_1 m c t h0 h1) (scrC_2 m c t h0 h1))

/-- … and the output block is the epilogue of those scratches. -/
theorem outC (c : Dev nD) (t : Fin cfg0.N) (h0 : ¬t.val % 50 = 0) (h1 : t.val % 50 = 49) :
    (outsAt0 m c t.val t.isLt).1
      = k0_pay3 (next m c t (outsAt0 m c (t.val - 1) (Nat.lt_of_le_of_lt (Nat.sub_le _ _) t.isLt)).2).1 (next m c t (outsAt0 m c (t.val - 1) (Nat.lt_of_le_of_lt (Nat.sub_le _ _) t.isLt)).2).2.1 (next m c t (outsAt0 m c (t.val - 1) (Nat.lt_of_le_of_lt (Nat.sub_le _ _) t.isLt)).2).2.2 := by
  rw [outsAt0_C m c t h0 h1]
  dsimp only
  exact oC_3 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- What the frame's run found in the three scratches after point `n` is this recursion. -/
theorem scr_eq (c : Dev nD) : ∀ (n : ℕ) (h : n < cfg0.N), (outsAt0 m c n h).2 = st m c n h
  | 0, h => by
    rw [st_zero]
    exact scrA m c ⟨0, h⟩ (Nat.zero_mod 50) (by show ¬0 % 50 = 49; decide)
  | n + 1, h => by
    have ih := scr_eq c n (Nat.lt_of_succ_lt h)
    by_cases h0 : (n + 1) % 50 = 0
    · rw [st_first m c n h h0]
      exact scrA m c ⟨n + 1, h⟩ h0 (by show ¬(n + 1) % 50 = 49; omega)
    · rw [st_next m c n h h0]
      by_cases h1 : (n + 1) % 50 = 49
      · exact (scrC m c ⟨n + 1, h⟩ h0 h1).trans (congrArg (next m c ⟨n + 1, h⟩) ih)
      · exact (scrB m c ⟨n + 1, h⟩ h0 h1).trans (congrArg (next m c ⟨n + 1, h⟩) ih)

/-- After the last vocabulary tile of a row tile the output block is the epilogue of the scratches. -/
theorem out_eq (c : Dev nD) : ∀ (n : ℕ) (h : n < cfg0.N), n % 50 = 49 →
    (outsAt0 m c n h).1 = k0_pay3 (st m c n h).1 (st m c n h).2.1 (st m c n h).2.2
  | 0, _, h49 => absurd h49 (by decide)
  | n + 1, h, h49 => by
    have h0 : ¬(n + 1) % 50 = 0 := by omega
    have ih := scr_eq m c n (Nat.lt_of_succ_lt h)
    rw [st_next m c n h h0]
    exact (outC m c ⟨n + 1, h⟩ h0 h49).trans
      (congrArg (fun p : Trip F => k0_pay3 (next m c ⟨n + 1, h⟩ p).1 (next m c ⟨n + 1, h⟩ p).2.1 (next m c ⟨n + 1, h⟩ p).2.2) ih)

end Cert.KernelIdeal.Rows

end
-- ==== Proof.KColWord.lean ====
/-
  The class number the kernel gives a column of a vocabulary tile, as the word it computes:
  640 times the tile's number plus the column's position in the tile.
-/
import proofs.«421169_j4887672783289_3_alg».proof.Proof.Gen.KernelIdeal
import Idealize.ShloMosaic.Lib.ValueIdx

noncomputable section

namespace Cert.KernelIdeal.Pay

open Idealize.ShloMosaic Idealize.ShloMosaic.ValueIdx Cert.KernelIdeal Cert.KernelIdeal.Gen

/-- The class number the kernel gives column `n` of the tile at grid point `i`, as a word. -/
def colWord (i : grid0.Coords) (n : Fin 640) : BitVec 32 :=
  (addi (broadcast S1x640 (Scalar.muli (BitVec.ofNat 32 (i 1).val) 640#32)) (iota .tc S1x640 32 [1] iota_S1x640_d1_w32))
    (ix2 (0 : Fin 1) n)

end Cert.KernelIdeal.Pay

end
-- ==== Proof.LibRowOps.lean ====
/-
  Layout operations and a lane sum read at an index given by coordinates: the column forms that sit beside the
  row forms of the library's layout lemmas.

  * a column [a, 1] broadcast along its unit axis to [a, b] reads, at (p, c), the column's entry p;
  * a vector [a] cast to a column [a, 1] reads, at (i, 0), the vector's entry i;
  * a sum over the second axis of an [a, b] array, read at p, is the sum over n of the entries (p, n);
  * a block of extents [1, m, n] loaded from an [k, m, n] array at offset (i, 0, 0) reads, at (0, r, c), the array's
    entry (i, r, c); likewise a [1, n] row of a [k, n] array and one entry of a vector.
-/
import Idealize.ShloMosaic.Lib.ValueLayout
import Idealize.ShloMosaic.Lib.Pipeline.FrameBody
import Idealize.ShloMosaic.PureOps.Ideal.Laws

noncomputable section

namespace Cert.RowOps

open Idealize.ShloMosaic Idealize.ShloMosaic.ValueIdx

variable {α : Type}

/-- A column broadcast along its unit axis: entry (p, c) of the result is entry p of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column: entry (i, 0) of the column is entry i of the vector. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the second axis of an [a, b] array of extended reals, read at p: the sum over n of entry (p, n). -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ n : Fin b, src (ix2 p n) := by
  refine (Ideal.multiReduction_add_single src 0x00000000#32 h hφ hacc (ix1 p)).trans ?_
  refine Finset.sum_congr rfl fun n _ => congrArg src (funext fun c => Fin.ext ?_)
  show h.liftVal (ix1 p) n.val c = _
  match c with
  | ⟨0, _⟩ => simp [Shape.Reduces.liftVal]
  | ⟨1, _⟩ => simp [Shape.Reduces.liftVal]

/-- A load through a unit-stride rectangle reads, at j, the array at the index k whose coordinates are the
    rectangle's offsets plus j's. -/
theorem ld_unit_apply {S : Shape} {Val : EltTy → Type} {e : EltTy} (X : S.Idx → Val e)
    (off size : Fin S.rank → Nat) (inb : ∀ a, off a + size a ≤ S.size a)
    (j : (Rect.unit off size inb).shape.Idx) (k : S.Idx) (hk : ∀ a, (k a).val = off a + (j a).val) :
    View.ld X (Rect.unit off size inb) j = X k := by
  show X ((Rect.unit off size inb).idx j) = X k
  refine congrArg X (funext fun a => Fin.ext ?_)
  rw [hk a]
  show off a + 1 * (j a).val = off a + (j a).val
  rw [Nat.one_mul]

end Cert.RowOps

end
-- ==== Proof.LibRowMax.lean ====
/-
  A maximum over the second axis of an [a, b] array of extended reals, read at an index given by a
  coordinate: the row form that sits beside the lane sum read at an index.
-/
import Idealize.ShloMosaic.Lib.ValueIdx
import Idealize.ShloMosaic.PureOps.Ideal.Laws

noncomputable section

namespace Cert.RowMax

open Idealize.ShloMosaic Idealize.ShloMosaic.ValueIdx

/-- The f32 word of minus infinity denotes the bottom extended real. -/
theorem ofBits_neg_inf_f32 : Ideal.ofBits .f32 0xFF800000#32 = (⊥ : EReal) := by simp [Ideal.ofBits, Ideal.ieee]

/-- The maximum over the second axis of an [a, b] array, taken from minus infinity and read at p: the fold of `max`
    from the bottom element over the entries (p, n). -/
theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (⊥ : EReal) (fun n => src (ix2 p n)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg ((Finset.univ : Finset (Fin b)).fold max (⊥ : EReal)) (funext fun n => congrArg src (funext fun c => Fin.ext ?_))
  show h.liftVal (ix1 p) n.val c = _
  match c with
  | ⟨0, _⟩ => simp [Shape.Reduces.liftVal]
  | ⟨1, _⟩ => simp [Shape.Reduces.liftVal]

end Cert.RowMax

end
-- ==== Proof.KPayload.lean ====
/-
  The kernel body's arithmetic read entry by entry on the extended reals.

  With s(r, c) = sum_k x0[r, k] x1[c, k] the tile's scores (rows of the input block against rows of the
  weight block): the new maximum at row r is max (old) (max_c s(r, c)); the correction factor is
  e^(old - new); the shifted scores are s(r, c) - new; the new normaliser is old * factor + sum_c e^(shifted);
  the chosen-class score gains sum_c [column word of c = label of r] s(r, c); the epilogue is
  (max + log normaliser) - chosen-class score. The resets are -inf, 0 and 0.
-/
import proofs.«421169_j4887672783289_3_alg».proof.Proof.Gen.KernelIdeal.Skeleton
import proofs.«421169_j4887672783289_3_alg».proof.Proof.KColWord
import proofs.«421169_j4887672783289_3_alg».proof.Proof.LibRowOps
import proofs.«421169_j4887672783289_3_alg».proof.Proof.LibRowMax
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.RowOps Cert.RowMax

/-- The tile's score of input-block row `r` against weight-block row `c`. -/
def blkScore (x0 : FVec Ideal S1024x4096 .bf16) (x1 : FVec Ideal S640x4096 .bf16) (r : Fin 1024) (c : Fin 640) : EReal :=
  ∑ k : Fin 4096, x0 (ix2 r k) * x1 (ix2 c k)

/-! ### The matrix product: the operand indices at an output index -/

theorem lhs_0 (i : S1024x640.Idx) (q : dot_S1024x4096_S640x4096_S1024x640_1_1_0_0_n_n.contr.Idx) :
    (dot_S1024x4096_S640x4096_S1024x640_1_1_0_0_n_n.lhsIdx i q 0).val = (i 0).val := by
  unfold DotDims.lhsIdx
  rw [dif_neg (show ¬(0 : Fin S1024x4096.rank) ∈ dot_S1024x4096_S640x4096_S1024x640_1_1_0_0_n_n.lhsBatch by decide), dif_pos (show (0 : Fin S1024x4096.rank) ∈ dot_S1024x4096_S640x4096_S1024x640_1_1_0_0_n_n.lhsNonContracting by decide)]
  rfl
theorem lhs_1 (i : S1024x640.Idx) (q : dot_S1024x4096_S640x4096_S1024x640_1_1_0_0_n_n.contr.Idx) :
    (dot_S1024x4096_S640x4096_S1024x640_1_1_0_0_n_n.lhsIdx i q 1).val = (q ⟨0, by decide⟩).val :=
  dot_S1024x4096_S640x4096_S1024x640_1_1_0_0_n_n.lhsIdx_val_of_single rfl i q
theorem rhs_0 (i : S1024x640.Idx) (q : dot_S1024x4096_S640x4096_S1024x640_1_1_0_0_n_n.contr.Idx) :
    (dot_S1024x4096_S640x4096_S1024x640_1_1_0_0_n_n.rhsIdx i q 0).val = (i 1).val := by
  unfold DotDims.rhsIdx
  rw [dif_neg (show ¬(0 : Fin S640x4096.rank) ∈ dot_S1024x4096_S640x4096_S1024x640_1_1_0_0_n_n.rhsBatch by decide), dif_pos (show (0 : Fin S640x4096.rank) ∈ dot_S1024x4096_S640x4096_S1024x640_1_1_0_0_n_n.rhsNonContracting by decide)]
  rfl
theorem rhs_1 (i : S1024x640.Idx) (q : dot_S1024x4096_S640x4096_S1024x640_1_1_0_0_n_n.contr.Idx) :
    (dot_S1024x4096_S640x4096_S1024x640_1_1_0_0_n_n.rhsIdx i q 1).val = (q ⟨0, by decide⟩).val :=
  dot_S1024x4096_S640x4096_S1024x640_1_1_0_0_n_n.rhsIdx_val_of_single rfl i q

/-- The tile's scores are the matrix product's entries. -/
theorem pay7_apply (x0 : FVec Ideal S1024x4096 .bf16) (x1 : FVec Ideal S640x4096 .bf16) (r : Fin 1024) (c : Fin 640) :
    k0_pay7 (F := Ideal) x0 x1 (ix2 r c) = blkScore x0 x1 r c := by
  unfold k0_pay7 blkScore
  rw [shapeCast_self, shapeCast_self]
  simp only [matmul]
  rw [Ideal.matmul_constant_zero_apply, ← Equiv.sum_comp (ValueIdx.contrEquiv1 dot_S1024x4096_S640x4096_S1024x640_1_1_0_0_n_n 4096 rfl rfl).symm]
  refine Finset.sum_congr rfl fun k _ => ?_
  have hk := ValueIdx.contrEquiv1_symm_val dot_S1024x4096_S640x4096_S1024x640_1_1_0_0_n_n 4096 rfl rfl k
  have el : dot_S1024x4096_S640x4096_S1024x640_1_1_0_0_n_n.lhsIdx (ix2 r c) ((ValueIdx.contrEquiv1 dot_S1024x4096_S640x4096_S1024x640_1_1_0_0_n_n 4096 rfl rfl).symm k) = ix2 r k := funext fun a => Fin.ext (by
    match a with
    | ⟨0, _⟩ => exact lhs_0 _ _
    | ⟨1, _⟩ => exact (lhs_1 _ _).trans hk)
  have er : dot_S1024x4096_S640x4096_S1024x640_1_1_0_0_n_n.rhsIdx (ix2 r c) ((ValueIdx.contrEquiv1 dot_S1024x4096_S640x4096_S1024x640_1_1_0_0_n_n 4096 rfl rfl).symm k) = ix2 c k := funext fun a => Fin.ext (by
    match a with
    | ⟨0, _⟩ => exact rhs_0 _ _
    | ⟨1, _⟩ => exact (rhs_1 _ _).trans hk)
  rw [el, er]

/-! ### The two row reductions, at the tile's shapes -/

/-- A row's sum over the tile's 640 columns. -/
theorem rowSum_apply (src : FVec Ideal S1024x640 .f32) (hacc : (0x00000000#32 : BitVec 32) = 0x00000000#32) (r : Fin 1024) :
    multiReduction .add [1] S1024 src 0x00000000#32 reduces_S1024x640_S1024 (.inl rfl) hacc (ix1 r)
      = ∑ n : Fin 640, src (ix2 r n) :=
  laneSum_apply src reduces_S1024x640_S1024 (.inl rfl) hacc r

/-- A row's maximum over the tile's 640 columns, taken from minus infinity. -/
theorem rowMax_apply (src : FVec Ideal S1024x640 .f32) (hacc : (0xFF800000#32 : BitVec 32) = 0xFF800000#32) (r : Fin 1024) :
    multiReduction .maximumf [1] S1024 src 0xFF800000#32 reduces_S1024x640_S1024 (.inl rfl) hacc (ix1 r)
      = (Finset.univ : Finset (Fin 640)).fold max (⊥ : EReal) (fun n => src (ix2 r n)) :=
  laneMax_apply src reduces_S1024x640_S1024 (.inl rfl) hacc r

/-! ### The other payloads -/

/-- The stored maximum is the computed one. -/
theorem pay2_eq (v : FVec Ideal S1024x1 .f32) : k0_pay2 (F := Ideal) v = v := by
  unfold k0_pay2
  exact shapeCast_self _ _

/-- The new maximum. -/
theorem pay9_apply (x0 : FVec Ideal S1024x4096 .bf16) (x1 : FVec Ideal S640x4096 .bf16) (v28 : FVec Ideal S1024x1 .f32)
    (r : Fin 1024) (u : Fin 1) :
    k0_pay9 (F := Ideal) x0 x1 v28 (ix2 r u)
      = max (v28 (ix2 r u)) ((Finset.univ : Finset (Fin 640)).fold max (⊥ : EReal) (fun c => blkScore x0 x1 r c)) := by
  unfold k0_pay9
  rw [maximumf_apply, shapeCast_a_a1_apply]
  exact congrArg (max (v28 (ix2 r u)))
    ((rowMax_apply (k0_pay7 (F := Ideal) x0 x1) _ r).trans
      (congrArg ((Finset.univ : Finset (Fin 640)).fold max (⊥ : EReal)) (funext fun c => pay7_apply x0 x1 r c)))

/-- The correction factor. -/
theorem pay10_apply (x0 : FVec Ideal S1024x4096 .bf16) (x1 : FVec Ideal S640x4096 .bf16) (v28 v30 : FVec Ideal S1024x1 .f32)
    (i : S1024x1.Idx) :
    k0_pay10 (F := Ideal) x0 x1 v28 v30 i = Ideal.exp (v30 i - k0_pay9 (F := Ideal) x0 x1 v28 i) := by
  unfold k0_pay10
  rfl

/-- The shifted scores. -/
theorem pay11_apply (x0 : FVec Ideal S1024x4096 .bf16) (x1 : FVec Ideal S640x4096 .bf16) (v28 : FVec Ideal S1024x1 .f32)
    (r : Fin 1024) (c : Fin 640) :
    k0_pay11 (F := Ideal) x0 x1 v28 (ix2 r c) = blkScore x0 x1 r c - k0_pay9 (F := Ideal) x0 x1 v28 (ix2 r (0 : Fin 1)) := by
  unfold k0_pay11
  rw [subf_apply, broadcastTo_a1_ab_apply, pay7_apply]

/-- The new normaliser. -/
theorem pay1_apply (v32 : FVec Ideal S1024x1 .f32) (v34 : FVec Ideal S1024x640 .f32) (v36 : FVec Ideal S1024x1 .f32)
    (r : Fin 1024) (u : Fin 1) :
    k0_pay1 (F := Ideal) v32 v34 v36 (ix2 r u) = v36 (ix2 r u) * v32 (ix2 r u) + ∑ c : Fin 640, Ideal.exp (v34 (ix2 r c)) := by
  unfold k0_pay1
  rw [shapeCast_self, addf_apply, mulf_apply, shapeCast_a_a1_apply]
  exact congrArg (v36 (ix2 r u) * v32 (ix2 r u) + ·) (rowSum_apply (exp v34) _ r)

/-- The epilogue. -/
theorem pay3_apply (v50 v51 v54 : FVec Ideal S1024x1 .f32) (i : S1024x1.Idx) :
    k0_pay3 (F := Ideal) v50 v51 v54 i = (v50 i + Ideal.log (v51 i)) - v54 i := by
  unfold k0_pay3
  rfl

/-- The resets. -/
theorem pay4_apply (i : S1024x1.Idx) : k0_pay4 (F := Ideal) i = (⊥ : EReal) := by
  unfold k0_pay4
  rw [shapeCast_self]
  exact ofBits_neg_inf_f32
theorem pay5_apply (i : S1024x1.Idx) : k0_pay5 (F := Ideal) i = (0 : EReal) := by
  unfold k0_pay5
  rw [shapeCast_self]
  exact Ideal.ofBits_zero_f32
theorem pay6_apply (i : S1024x1.Idx) : k0_pay6 (F := Ideal) i = (0 : EReal) := by
  unfold k0_pay6
  rw [shapeCast_self]
  exact Ideal.ofBits_zero_f32

/-- The chosen-class score's update: the old value plus the tile's scores under the mask. -/
theorem pay8_apply (i : grid0.Coords) (x0 : FVec Ideal S1024x4096 .bf16) (x1 : FVec Ideal S640x4096 .bf16)
    (x2 : IVec S1024x1 32) (v21 : FVec Ideal S1024x1 .f32) (r : Fin 1024) (u : Fin 1) :
    k0_pay8 (F := Ideal) i x0 x1 x2 v21 (ix2 r u)
      = v21 (ix2 r u) + ∑ n : Fin 640, if colWord i n = x2 (ix2 r (0 : Fin 1)) then blkScore x0 x1 r n else 0 := by
  unfold k0_pay8
  rw [shapeCast_self, addf_apply, shapeCast_a_a1_apply]
  refine congrArg (v21 (ix2 r u) + ·) ((rowSum_apply _ _ r).trans (Finset.sum_congr rfl fun n _ => ?_))
  rw [select_apply]
  show Scalar.select (IntOp.cmpi .eq (broadcastTo S1024x640 _ broadcasts_S1x640_S1024x640 (ix2 r n))
      (broadcastTo S1024x640 _ broadcasts_S1024x1_S1024x640 (ix2 r n))) (k0_pay7 (F := Ideal) x0 x1 (ix2 r n)) _ = _
  rw [broadcastTo_1b_ab_apply, broadcastTo_a1_ab_apply, shapeCast_self, pay7_apply]
  show Scalar.select (IntOp.cmpi .eq (colWord i n) (x2 (ix2 r (0 : Fin 1)))) (blkScore x0 x1 r n) (Ideal.ofBits .f32 0x00000000#32) = _
  rw [Ideal.ofBits_zero_f32]
  unfold Scalar.select
  by_cases h : colWord i n = x2 (ix2 r (0 : Fin 1))
  · exact (if_pos (show IntOp.cmpi .eq (colWord i n) (x2 (ix2 r (0 : Fin 1))) = 1 from StableHlo.Predicate.cmpi_eq_iff.2 h)).trans
      (if_pos h).symm
  · exact (if_neg (fun h' : IntOp.cmpi .eq (colWord i n) (x2 (ix2 r (0 : Fin 1))) = 1 =>
      h (StableHlo.Predicate.cmpi_eq_iff.1 h'))).trans (if_neg h).symm

end Cert.KernelIdeal.Pay

end
-- ==== Proof.KLabels.lean ====
/-
  Word arithmetic of the labels on the kernel's side: the column words of a tile, the clamped label
  of an admissible row, and when the two are equal.
-/
import proofs.«421169_j4887672783289_3_alg».proof.Proof.KColWord
import proofs.«421169_j4887672783289_3_alg».proof.Proof.Spec

noncomputable section

namespace Cert.KernelIdeal.Labels

open Idealize.ShloMosaic Idealize.ShloMosaic.ValueIdx Cert.KernelIdeal Cert.KernelIdeal.Gen Cert.KernelIdeal.Pay

/-- Column `n` of tile `(i 1)` has class number `640 (i 1) + n`. -/
theorem colWord_eq (i : grid0.Coords) (n : Fin 640) : colWord i n = BitVec.ofNat 32 (640 * (i 1).val + n.val) := by
  -- the position word along the tile's column axis, read at column n, is the word of n
  have hi : ∀ (h : S1x640.Iotas .tc 32 [1]),
      iota .tc S1x640 32 [1] h (ix2 (0 : Fin 1) n) = BitVec.ofNat 32 n.val := by
    intro h
    show BitVec.ofNat 32 (0 * 640 + n.val) = BitVec.ofNat 32 n.val
    rw [Nat.zero_mul, Nat.zero_add]
  unfold colWord
  show IntOp.addi (Scalar.muli (BitVec.ofNat 32 (i 1).val) 640#32)
      (iota .tc S1x640 32 [1] _ (ix2 (0 : Fin 1) n)) = _
  rw [hi]
  -- word addition and multiplication are those of the naturals read modulo 2^32
  show BitVec.ofNat 32 (i 1).val * 640#32 + BitVec.ofNat 32 n.val = _
  rw [BitVec.ofNat_add, BitVec.ofNat_mul, BitVec.mul_comm]

/-- The kernel's clamped label of an admissible label word `t` (the ignore label replaced by 0, then
    clamped into [0, 31999]) is the class the label picks. -/
theorem clamp_eq (t : BitVec 32) (h1 : t.toInt < 32000) (h2 : 0 ≤ t.toInt ∨ t = 4294967196#32) :
    IntOp.minsi 31999#32 (IntOp.maxsi 0#32 (Scalar.select (IntOp.cmpi .ne t 4294967196#32) t 0#32))
      = BitVec.ofNat 32 (Cert.Spec.cls t) := by
  by_cases ht : t = 4294967196#32
  · -- the ignore label: replaced by 0, which both clamps keep, and its class is 0
    subst ht
    decide
  · -- a label in [0, 31999]: kept by the replacement and by both clamps, and its class is its value
    have h0 : 0 ≤ t.toInt := h2.resolve_right ht
    have hc : IntOp.cmpi .ne t 4294967196#32 = 1#1 := IntOp.cmpi_ne.2 ht
    have hsel : Scalar.select (IntOp.cmpi .ne t 4294967196#32) t 0#32 = t := by
      rw [hc]; rfl
    have z0 : (0#32 : BitVec 32).toInt = 0 := by decide
    have z1 : (31999#32 : BitVec 32).toInt = 31999 := by decide
    have hmaxn : ¬ (t.slt 0#32 = true) := by
      rw [BitVec.slt_iff_toInt_lt, z0]; omega
    have hminn : ¬ ((31999#32 : BitVec 32).slt t = true) := by
      rw [BitVec.slt_iff_toInt_lt, z1]; omega
    have hmax : IntOp.maxsi 0#32 t = t := if_neg hmaxn
    have hmin : IntOp.minsi 31999#32 t = t := if_neg hminn
    have hcls : Cert.Spec.cls t = t.toNat := if_neg ht
    rw [hsel, hmax, hmin, hcls]
    apply BitVec.eq_of_toNat_eq
    rw [BitVec.toNat_ofNat]
    exact (Nat.mod_eq_of_lt t.isLt).symm

/-- Two class numbers below 2^32 are equal as words exactly when they are equal. -/
theorem ofNat_eq_iff {a b : ℕ} (ha : a < 32000) (hb : b < 32000) : BitVec.ofNat 32 a = BitVec.ofNat 32 b ↔ a = b := by
  constructor
  · intro h
    have h' := congrArg BitVec.toNat h
    rw [BitVec.toNat_ofNat, BitVec.toNat_ofNat, Nat.mod_eq_of_lt (by omega), Nat.mod_eq_of_lt (by omega)] at h'
    exact h'
  · rintro rfl; rfl

end Cert.KernelIdeal.Labels

end
-- ==== Proof.KBlocks.lean ====
/-
  The three input blocks of a grid point read entry by entry from the program's arguments: point t
  is row tile t / 50 and vocabulary tile t % 50; the input block's row r is the input's row
  1024 (t / 50) + r, the weight block's row c is the weight's row 640 (t % 50) + c (the casts to the
  narrow float format change nothing on the extended reals), and the label block's row r holds the
  clamped label of that input row, which for an admissible label is the class it picks.
-/
import proofs.«421169_j4887672783289_3_alg».proof.Proof.KBlk
import proofs.«421169_j4887672783289_3_alg».proof.Proof.KLabels
import proofs.«421169_j4887672783289_3_alg».proof.Proof.Spec
import Idealize.ShloMosaic.Lib.Pipeline.Value
import Idealize.ShloMosaic.Lib.ValueIdx
import Idealize.ShloMosaic.Lib.ValueLayout

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Rows

variable (m : (ℓ : Loc nD τ sig) → Buf (Elt Ideal) ℓ)

theorem row_lt (t : Fin cfg0.N) (r : Fin 1024) : 1024 * (t.val / 50) + r.val < 8192 := by
  have hN : cfg0.N = 400 := N_0
  have := t.isLt; have := r.isLt; omega

theorem cls_lt' (t : Fin cfg0.N) (cc : Fin 640) : 640 * (t.val % 50) + cc.val < 32000 := by
  have := cc.isLt; omega

/-- The printed index maps over the grid: the input and label windows follow the row tile, the weight window the
    vocabulary tile; none moves along the second axis. -/
theorem idx_x : ∀ t : Fin cfg0.N, win0_0.index t (0 : Fin 2) = t.val / 50 ∧ win0_0.index t (1 : Fin 2) = 0 :=
  (by decide +kernel : ∀ t : Fin grid0.N, _)
theorem idx_w : ∀ t : Fin cfg0.N, win0_1.index t (0 : Fin 2) = t.val % 50 ∧ win0_1.index t (1 : Fin 2) = 0 :=
  (by decide +kernel : ∀ t : Fin grid0.N, _)
theorem idx_t : ∀ t : Fin cfg0.N, win0_2.index t (0 : Fin 2) = t.val / 50 ∧ win0_2.index t (1 : Fin 2) = 0 :=
  (by decide +kernel : ∀ t : Fin grid0.N, _)

/-- The cast input as the region finds it: the input itself, entry by entry. -/
theorem V_x (c : Dev nD) (i : S8192x4096.Idx) : (V m c main_v0 : FVec Ideal S8192x4096 .bf16) i
    = (m ((c.tc : Thread nD τ).loc main_arg0) : FVec Ideal S8192x4096 .f32) i := by
  have e : @Eq (FVec Ideal S8192x4096 .bf16) (V m c main_v0)
      (truncf .bf16 (m ((c.tc : Thread nD τ).loc main_arg0) : FVec Ideal S8192x4096 .f32) bitsLt_bf16_f32) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
  exact congrFun e i

/-- The input block's entry. -/
theorem xb_apply (c : Dev nD) (t : Fin cfg0.N) (r : Fin 1024) (k : Fin 4096) :
    (xb m c t : FVec Ideal S1024x4096 .bf16) (ix2 r k)
      = (m ((c.tc : Thread nD τ).loc main_arg0) : FVec Ideal S8192x4096 .f32) (ix2 ⟨1024 * (t.val / 50) + r.val, row_lt t r⟩ k) := by
  obtain ⟨e0, e1⟩ := idx_x t
  unfold xb Gen.iblk
  rw [View.read_apply]
  show (V m c main_v0 : FVec Ideal S8192x4096 .bf16) (((cfg0.win 0).blk t).view.emb (ix2 r k)) = _
  rw [V_x]
  congr 1
  funext a
  apply Fin.ext
  match a with
  | ⟨0, _⟩ => show win0_0.index t (0 : Fin 2) * 1024 + 1 * r.val = 1024 * (t.val / 50) + r.val; rw [e0]; omega
  | ⟨1, _⟩ => show win0_0.index t (1 : Fin 2) * 4096 + 1 * k.val = k.val; rw [e1]; omega

/-- The cast weight as the region finds it: the weight itself, entry by entry. -/
theorem V_w (c : Dev nD) (i : S32000x4096.Idx) : (V m c main_v1 : FVec Ideal S32000x4096 .bf16) i
    = (m ((c.tc : Thread nD τ).loc main_arg1) : FVec Ideal S32000x4096 .f32) i := by
  have e : @Eq (FVec Ideal S32000x4096 .bf16) (V m c main_v1)
      (truncf .bf16 (m ((c.tc : Thread nD τ).loc main_arg1) : FVec Ideal S32000x4096 .f32) bitsLt_bf16_f32) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
  exact congrFun e i

/-- The weight block's entry. -/
theorem wb_apply (c : Dev nD) (t : Fin cfg0.N) (cc : Fin 640) (k : Fin 4096) :
    (wb m c t : FVec Ideal S640x4096 .bf16) (ix2 cc k)
      = (m ((c.tc : Thread nD τ).loc main_arg1) : FVec Ideal S32000x4096 .f32) (ix2 ⟨640 * (t.val % 50) + cc.val, cls_lt' t cc⟩ k) := by
  obtain ⟨e0, e1⟩ := idx_w t
  unfold wb Gen.iblk
  rw [View.read_apply]
  show (V m c main_v1 : FVec Ideal S32000x4096 .bf16) (((cfg0.win 1).blk t).view.emb (ix2 cc k)) = _
  rw [V_w]
  congr 1
  funext a
  apply Fin.ext
  match a with
  | ⟨0, _⟩ => show win0_1.index t (0 : Fin 2) * 640 + 1 * cc.val = 640 * (t.val % 50) + cc.val; rw [e0]; omega
  | ⟨1, _⟩ => show win0_1.index t (1 : Fin 2) * 4096 + 1 * k.val = k.val; rw [e1]; omega

/-- The label column as the region finds it: the labels with the ignore label replaced by 0, clamped into
    [0, 31999], as a column. -/
theorem V_t (c : Dev nD) : @Eq (IVec S8192x1 32) (V m c main_v6)
    (shapeCast S8192x1
      (minsi (broadcastInDim S8192 ![] bcast_S_S8192 (constantI S_ 32 31999#32))
        (maxsi (broadcastInDim S8192 ![] bcast_S_S8192 (constantI S_ 32 0#32))
          (select (cmpi .ne (m ((c.tc : Thread nD τ).loc main_arg2) : IVec S8192 32)
              (broadcastInDim S8192 ![] bcast_S_S8192 (constantI S_ 32 4294967196#32)))
            (m ((c.tc : Thread nD τ).loc main_arg2) : IVec S8192 32)
            (broadcastInDim S8192 ![] bcast_S_S8192 (constantI S_ 32 0#32)))))
      shapeCasts_S8192_S8192x1) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The label block's entry, for admissible labels: the class the row's label picks, as a word. -/
theorem tb_apply (c : Dev nD) (ht : Cert.Spec.LabelsOk (m ((c.tc : Thread nD τ).loc main_arg2)))
    (t : Fin cfg0.N) (r : Fin 1024) (u : Fin 1) :
    (tb m c t : IVec S1024x1 32) (ix2 r u)
      = BitVec.ofNat 32 (Cert.Spec.cls ((m ((c.tc : Thread nD τ).loc main_arg2) : IVec S8192 32) (ix1 ⟨1024 * (t.val / 50) + r.val, row_lt t r⟩))) := by
  obtain ⟨e0, e1⟩ := idx_t t
  unfold tb Gen.iblk
  rw [View.read_apply]
  show (V m c main_v6 : IVec S8192x1 32) (((cfg0.win 2).blk t).view.emb (ix2 r u)) = _
  rw [V_t]
  rw [shapeCast_apply _ _ _ (ix1 ⟨1024 * (t.val / 50) + r.val, row_lt t r⟩)]
  · exact Labels.clamp_eq _ (ht _).1 (ht _).2
  · rw [Shape.rowMajor_val_one, Shape.rowMajor_val_two]
    show 1024 * (t.val / 50) + r.val = (win0_2.index t (0 : Fin 2) * 1024 + 1 * r.val) * 1 + (win0_2.index t (1 : Fin 2) * 1 + 1 * u.val)
    have := u.isLt
    rw [e0, e1]; omega

/-- The valid-rows mask the region finds: a row is valid when its label is not the ignore label. -/
theorem V_main_v3 (c : Dev nD) :
    (V m c main_v3 : IVec S8192 1)
      = cmpi .ne (m ((c.tc : Thread nD τ).loc main_arg2) : IVec S8192 32) (broadcastInDim S8192 ![] bcast_S_S8192 (constantI S_ 32 4294967196#32)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results

end Cert.KernelIdeal.Blocks

end
-- ==== Proof.LibOnlineSoftmax.lean ====
/-
  The online (running-maximum) softmax against the plain softmax, on the extended reals.

  A score is an extended real that is a real number or minus infinity (a masked entry); its weight
  is e^score, zero at minus infinity. Plain softmax-weighted averaging of real values v_k with
  scores s_k is (sum_k e^{s_k} v_k) / (sum_k e^{s_k}): subtracting any real M from every score
  multiplies numerator and denominator by e^{-M}. The online form keeps a running maximum m, a
  normaliser l = e^{-m} W and a weighted sum a = e^{-m} A, where W and A are the sums of weights and
  of weighted values over the keys seen so far; a step over a further tile of keys rescales both by
  e^{m - m'} for the new maximum m' and adds the tile's terms e^{s_k - m'} and e^{s_k - m'} v_k.
  Because e^{m - m'} e^{-m} = e^{-m'}, the invariant is kept; at the start m is minus infinity and
  l, a, W, A are zero, and the rescaling factor e^{-inf} is zero.
-/
import Idealize.ShloMosaic.PureOps.Ideal

noncomputable section

open scoped BigOperators

namespace Cert.OnlineSoftmax

open Idealize.ShloMosaic

/-- The weight e^s of an extended-real score: zero at minus infinity. -/
def wt (s : EReal) : ℝ := (Ideal.exp s).toReal

theorem wt_bot : wt ⊥ = 0 := by
  simp [wt]

theorem wt_coe (σ : ℝ) : wt (σ : EReal) = Real.exp σ := by
  simp [wt]

theorem wt_nonneg (s : EReal) : 0 ≤ wt s := by
  induction s using EReal.rec with
  | bot => rw [wt_bot]
  | coe r => rw [wt_coe]; exact (Real.exp_pos r).le
  | top => simp [wt]

/-- A real score has a positive weight. -/
private theorem wt_pos {s : EReal} (h1 : s ≠ ⊤) (h2 : s ≠ ⊥) : 0 < wt s := by
  induction s using EReal.rec with
  | bot => exact absurd rfl h2
  | coe r => rw [wt_coe]; exact Real.exp_pos r
  | top => exact absurd rfl h1

/-- A finite family of scores, none plus infinity and one of them real, has a positive total weight. -/
theorem sum_wt_pos {ι : Type*} [Fintype ι] (s : ι → EReal) (hs : ∀ k, s k ≠ ⊤) (hne : ∃ k, s k ≠ ⊥) :
    0 < ∑ k, wt (s k) := by
  obtain ⟨k, hk⟩ := hne
  exact Finset.sum_pos' (fun i _ => wt_nonneg (s i)) ⟨k, Finset.mem_univ k, wt_pos (hs k) hk⟩

theorem sum_wt_nonneg {ι : Type*} [Fintype ι] (s : ι → EReal) : 0 ≤ ∑ k, wt (s k) :=
  Finset.sum_nonneg (fun k _ => wt_nonneg (s k))

/-- The coercion of a finite real sum is the sum of the coercions. -/
private theorem coe_sum {ι : Type*} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The maximum of finitely many scores, none plus infinity and one of them real, is real. -/
private theorem fold_real {ι : Type*} [Fintype ι] (s : ι → EReal) (hs : ∀ k, s k ≠ ⊤)
    (hne : ∃ k, s k ≠ ⊥) : ∃ φ : ℝ, Finset.univ.fold max ⊥ s = (φ : EReal) := by
  obtain ⟨k, hk⟩ := hne
  have hlt : Finset.univ.fold max ⊥ s < ⊤ :=
    (Finset.fold_max_lt _).2 ⟨bot_lt_top, fun x _ => lt_top_iff_ne_top.2 (hs x)⟩
  have hle : s k ≤ Finset.univ.fold max ⊥ s :=
    (Finset.le_fold_max _).2 (Or.inr ⟨k, Finset.mem_univ k, le_rfl⟩)
  have hbot : Finset.univ.fold max ⊥ s ≠ ⊥ := fun h => hk (le_bot_iff.1 (h ▸ hle))
  exact ⟨_, (EReal.coe_toReal hlt.ne hbot).symm⟩

/-- Subtracting a real M from a score multiplies its weight by e^{-M}. -/
private theorem exp_sub_coe {s : EReal} (hs : s ≠ ⊤) (M : ℝ) :
    Ideal.exp (s - (M : EReal)) = ((wt s * Real.exp (-M) : ℝ) : EReal) := by
  induction s using EReal.rec with
  | bot => rw [EReal.bot_sub, Ideal.exp_bot, wt_bot, zero_mul, EReal.coe_zero]
  | coe σ => rw [← EReal.coe_sub, Ideal.exp_coe, wt_coe, ← Real.exp_add, sub_eq_add_neg]
  | top => exact absurd rfl hs

/-- The maximum of two reals, read in the extended reals, is a real. -/
private theorem max_coe_coe (x y : ℝ) : ∃ z : ℝ, max (x : EReal) (y : EReal) = (z : EReal) := by
  rcases le_total x y with h | h
  · exact ⟨y, max_eq_right (EReal.coe_le_coe_iff.2 h)⟩
  · exact ⟨x, max_eq_left (EReal.coe_le_coe_iff.2 h)⟩

/-- The running state (m, l, a) stands for the totals W (of weights) and A (of weighted values):
    before any key m = -inf and all is zero; afterwards m is real, l = e^{-m} W and a = e^{-m} A. -/
def Inv (m l a : EReal) (W A : ℝ) : Prop :=
  (m = ⊥ ∧ l = 0 ∧ a = 0 ∧ W = 0 ∧ A = 0) ∨
    ∃ μ : ℝ, m = (μ : EReal) ∧ l = ((Real.exp (-μ) * W : ℝ) : EReal) ∧ a = ((Real.exp (-μ) * A : ℝ) : EReal)

theorem inv_init : Inv ⊥ 0 0 0 0 :=
  Or.inl ⟨rfl, rfl, rfl, rfl, rfl⟩

/-- The tile's terms at a real new maximum: the normaliser's and the weighted sum's. -/
private theorem tile_sums {ι : Type*} [Fintype ι] (s : ι → EReal) (v : ι → ℝ) (hs : ∀ k, s k ≠ ⊤) (M : ℝ) :
    (∑ k, Ideal.exp (s k - (M : EReal)) = ((Real.exp (-M) * ∑ k, wt (s k) : ℝ) : EReal)) ∧
    (∑ k, Ideal.exp (s k - (M : EReal)) * ((v k : ℝ) : EReal)
      = ((Real.exp (-M) * ∑ k, wt (s k) * v k : ℝ) : EReal)) := by
  constructor
  · rw [Finset.mul_sum, coe_sum]
    refine Finset.sum_congr rfl fun k _ => ?_
    rw [exp_sub_coe (hs k), mul_comm]
  · rw [Finset.mul_sum, coe_sum]
    refine Finset.sum_congr rfl fun k _ => ?_
    rw [exp_sub_coe (hs k), ← EReal.coe_mul]
    congr 1
    ring

/-- One step over a tile of keys with scores `s` (none +inf, one real) and real values `v`. -/
theorem inv_step {ι : Type*} [Fintype ι] (s : ι → EReal) (v : ι → ℝ) (hs : ∀ k, s k ≠ ⊤) (hne : ∃ k, s k ≠ ⊥)
    {m l a : EReal} {W A : ℝ} (h : Inv m l a W A) :
    Inv (max m (Finset.univ.fold max ⊥ s))
      (Ideal.exp (m - max m (Finset.univ.fold max ⊥ s)) * l + ∑ k, Ideal.exp (s k - max m (Finset.univ.fold max ⊥ s)))
      (Ideal.exp (m - max m (Finset.univ.fold max ⊥ s)) * a
        + ∑ k, Ideal.exp (s k - max m (Finset.univ.fold max ⊥ s)) * ((v k : ℝ) : EReal))
      (W + ∑ k, wt (s k)) (A + ∑ k, wt (s k) * v k) := by
  obtain ⟨φ, hφ⟩ := fold_real s hs hne
  rw [hφ]
  rcases h with ⟨rfl, rfl, rfl, rfl, rfl⟩ | ⟨μ, rfl, rfl, rfl⟩
  · -- the first tile: the old maximum is minus infinity, the rescaling factor is zero
    rw [max_bot_left]
    obtain ⟨h1, h2⟩ := tile_sums s v hs φ
    refine Or.inr ⟨φ, rfl, ?_, ?_⟩
    · rw [h1, mul_zero, zero_add, zero_add]
    · rw [h2, mul_zero, zero_add, zero_add]
  · -- a later tile: both maxima are real, and e^{μ - μ'} e^{-μ} = e^{-μ'}
    obtain ⟨μ', hμ'⟩ := max_coe_coe μ φ
    rw [hμ']
    obtain ⟨h1, h2⟩ := tile_sums s v hs μ'
    have hcancel : Real.exp μ * Real.exp (-μ) = 1 := by
      rw [← Real.exp_add, add_neg_cancel, Real.exp_zero]
    refine Or.inr ⟨μ', rfl, ?_, ?_⟩
    · rw [h1, exp_sub_coe (EReal.coe_ne_top μ), wt_coe, ← EReal.coe_mul, ← EReal.coe_add]
      congr 1
      linear_combination (Real.exp (-μ') * W) * hcancel
    · rw [h2, exp_sub_coe (EReal.coe_ne_top μ), wt_coe, ← EReal.coe_mul, ← EReal.coe_add]
      congr 1
      linear_combination (Real.exp (-μ') * A) * hcancel

/-- The final normalisation: the weighted sum over the normaliser is A / W. -/
theorem inv_finish {m l a : EReal} {W A : ℝ} (h : Inv m l a W A) (hW : 0 < W) :
    Ideal.div a l = ((A / W : ℝ) : EReal) := by
  rcases h with ⟨_, _, _, rfl, _⟩ | ⟨μ, _, rfl, rfl⟩
  · exact absurd hW (lt_irrefl 0)
  · have hne : Real.exp (-μ) * W ≠ 0 := (mul_pos (Real.exp_pos _) hW).ne'
    rw [Ideal.div_coe hne, ← EReal.coe_mul]
    congr 1
    have hW' : W ≠ 0 := hW.ne'
    have he : Real.exp (-μ) ≠ 0 := (Real.exp_pos _).ne'
    field_simp

/-- The plain softmax average as a host program computes it: the maximum taken against -inf, the
    normaliser summed from zero, each probability a quotient, then the weighted sum of the values. -/
theorem softmax_row {κ : Type*} [Fintype κ] (s : κ → EReal) (v : κ → ℝ) (hs : ∀ k, s k ≠ ⊤) (hne : ∃ k, s k ≠ ⊥) :
    ∑ k, Ideal.div (Ideal.exp (s k - max ⊥ (Finset.univ.fold max ⊥ s)))
        (0 + ∑ j, Ideal.exp (s j - max ⊥ (Finset.univ.fold max ⊥ s))) * ((v k : ℝ) : EReal)
      = (((∑ k, wt (s k) * v k) / (∑ k, wt (s k)) : ℝ) : EReal) := by
  obtain ⟨φ, hφ⟩ := fold_real s hs hne
  rw [hφ, max_bot_left, zero_add, (tile_sums s v hs φ).1]
  have hS : 0 < ∑ k, wt (s k) := sum_wt_pos s hs hne
  have he : Real.exp (-φ) ≠ 0 := (Real.exp_pos _).ne'
  have hne' : Real.exp (-φ) * ∑ k, wt (s k) ≠ 0 := (mul_pos (Real.exp_pos _) hS).ne'
  rw [Finset.sum_div, coe_sum]
  refine Finset.sum_congr rfl fun k _ => ?_
  rw [Ideal.div_coe hne', exp_sub_coe (hs k), ← EReal.coe_mul, ← EReal.coe_mul]
  congr 1
  have hS' : (∑ k, wt (s k)) ≠ 0 := hS.ne'
  field_simp

end Cert.OnlineSoftmax

end
-- ==== Proof.LogSumExp.lean ====
/-
  The streamed log-sum-exp of one row against the plain one, on the extended reals.

  A row has real scores sigma_v, v < 32000, cut into 50 tiles of 640. The streamed form keeps, per
  row, a running maximum m, a normaliser l and the score of one chosen class k: a tile with scores
  s_c replaces m by m' = max m (max_c s_c), l by l * e^(m - m') + sum_c e^(s_c - m'), and adds to the
  third component the tile's scores under the tile's mask. Starting from (-inf, 0, 0), after every
  tile l = e^(-m) W with W the sum of e^(sigma_v) over the classes seen, so at the end
  m + log l = log (sum_v e^(sigma_v)); the mask hits class k exactly once, so the third component
  ends at sigma_k. The plain form subtracts the row maximum M from every score and takes
  (sigma_k - M) - log (sum_v e^(sigma_v - M)). Both are log (sum_v e^(sigma_v)) - sigma_k up to sign.
-/
import Mathlib.Algebra.BigOperators.Intervals
import Mathlib.Analysis.SpecialFunctions.Log.Basic
import proofs.«421169_j4887672783289_3_alg».proof.Proof.LibOnlineSoftmax

noncomputable section

open scoped BigOperators

namespace Cert.LogSumExp

open Idealize.ShloMosaic Cert.OnlineSoftmax

/-- A row's running state: the maximum, the normaliser, the chosen class's score. -/
abbrev St : Type := EReal × EReal × EReal

/-- One tile's update of a row's state: scores `s`, the tile's mask `hit`. -/
def tileStep (s : Fin 640 → EReal) (hit : Fin 640 → Prop) [DecidablePred hit] (st : St) : St :=
  (max st.1 (Finset.univ.fold max ⊥ s),
   st.2.1 * Ideal.exp (st.1 - max st.1 (Finset.univ.fold max ⊥ s))
     + ∑ c, Ideal.exp (s c - max st.1 (Finset.univ.fold max ⊥ s)),
   st.2.2 + ∑ c, if hit c then s c else 0)

/-- The state after tiles `0 … j`, from `(-inf, 0, 0)`. -/
def rowAfter (s : ℕ → Fin 640 → EReal) (hit : ℕ → Fin 640 → Prop) [∀ j, DecidablePred (hit j)] : ℕ → St
  | 0 => tileStep (s 0) (hit 0) (⊥, 0, 0)
  | j + 1 => tileStep (s (j + 1)) (hit (j + 1)) (rowAfter s hit j)

/-- A tile's update depends on the scores and on the mask only through their values. -/
theorem tileStep_congr {s s' : Fin 640 → EReal} {hit hit' : Fin 640 → Prop} [DecidablePred hit] [DecidablePred hit']
    (hs : ∀ c, s c = s' c) (hh : ∀ c, hit c ↔ hit' c) (st : St) : tileStep s hit st = tileStep s' hit' st := by
  obtain rfl : s = s' := funext hs
  unfold tileStep
  refine Prod.ext rfl (Prod.ext rfl ?_)
  show st.2.2 + (∑ c, if hit c then s c else 0) = st.2.2 + ∑ c, if hit' c then s c else 0
  refine congrArg (st.2.2 + ·) (Finset.sum_congr rfl fun c _ => ?_)
  by_cases h : hit c
  · rw [if_pos h, if_pos ((hh c).1 h)]
  · rw [if_neg h, if_neg (fun h' => h ((hh c).2 h'))]

/-- The state after the tiles depends on the scores and the masks only through their values. -/
theorem rowAfter_congr {s s' : ℕ → Fin 640 → EReal} {hit hit' : ℕ → Fin 640 → Prop}
    [∀ j, DecidablePred (hit j)] [∀ j, DecidablePred (hit' j)]
    (hs : ∀ j c, s j c = s' j c) (hh : ∀ j c, hit j c ↔ hit' j c) : ∀ j, rowAfter s hit j = rowAfter s' hit' j
  | 0 => tileStep_congr (hs 0) (hh 0) _
  | j + 1 => by
    show tileStep (s (j + 1)) (hit (j + 1)) (rowAfter s hit j) = tileStep (s' (j + 1)) (hit' (j + 1)) (rowAfter s' hit' j)
    rw [rowAfter_congr hs hh j]
    exact tileStep_congr (hs (j + 1)) (hh (j + 1)) _

/-- The coercion of a finite real sum is the sum of the coercions. -/
theorem coe_sum {ι : Type*} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- From the invariant with a positive total weight: the maximum is a real `μ` and the
    normaliser's logarithm is `log W - μ`. -/
theorem log_of_inv {m l a : EReal} {W A : ℝ} (h : Inv m l a W A) (hW : 0 < W) :
    ∃ μ : ℝ, m = (μ : EReal) ∧ Ideal.log l = ((Real.log W - μ : ℝ) : EReal) := by
  rcases h with ⟨_, _, _, rfl, _⟩ | ⟨μ, rfl, rfl, _⟩
  · exact absurd hW (lt_irrefl 0)
  · refine ⟨μ, rfl, ?_⟩
    have hpos : 0 < Real.exp (-μ) * W := mul_pos (Real.exp_pos _) hW
    rw [Ideal.log_coe, if_neg (not_le.2 hpos), Real.log_mul (Real.exp_pos _).ne' hW.ne', Real.log_exp]
    congr 1
    ring

section stream

variable (σ : ℕ → ℝ) (k : ℕ)
variable (s : ℕ → Fin 640 → EReal) (hit : ℕ → Fin 640 → Prop) [∀ j, DecidablePred (hit j)]

/-- After tile `j` the state stands for the classes below `640 (j + 1)`: the invariant of the
    running maximum and normaliser at their total weight, and the masked scores' sum. -/
theorem rowAfter_inv
    (hs : ∀ j c, s j c = ((σ (640 * j + c.val) : ℝ) : EReal))
    (hhit : ∀ j c, hit j c ↔ 640 * j + c.val = k) (j : ℕ) :
    (∃ a A, Inv (rowAfter s hit j).1 (rowAfter s hit j).2.1 a
        (∑ v ∈ Finset.range (640 * (j + 1)), Real.exp (σ v)) A)
    ∧ (rowAfter s hit j).2.2
        = ((∑ v ∈ Finset.range (640 * (j + 1)), (if v = k then σ v else 0) : ℝ) : EReal) := by
  have hne : ∀ j, (∀ c, s j c ≠ ⊤) ∧ ∃ c, s j c ≠ ⊥ := fun j =>
    ⟨fun c => by rw [hs]; exact EReal.coe_ne_top _, ⟨⟨0, by norm_num⟩, by rw [hs]; exact EReal.coe_ne_bot _⟩⟩
  have hW : ∀ j, ∑ c : Fin 640, wt (s j c) = ∑ c ∈ Finset.range 640, Real.exp (σ (640 * j + c)) := fun j => by
    rw [Finset.sum_range]
    exact Finset.sum_congr rfl fun c _ => by rw [hs, wt_coe]
  have hT : ∀ j, (∑ c : Fin 640, if hit j c then s j c else 0)
      = ((∑ c ∈ Finset.range 640, (if 640 * j + c = k then σ (640 * j + c) else 0) : ℝ) : EReal) := fun j => by
    rw [Finset.sum_range, coe_sum]
    refine Finset.sum_congr rfl fun c _ => ?_
    by_cases h : 640 * j + c.val = k
    · rw [if_pos ((hhit j c).2 h), if_pos h, hs]
    · rw [if_neg (fun h' => h ((hhit j c).1 h')), if_neg h, EReal.coe_zero]
  have step : ∀ (j : ℕ) (st : St) (W T : ℝ), (∃ a A, Inv st.1 st.2.1 a W A) → st.2.2 = ((T : ℝ) : EReal) →
      (∃ a A, Inv (tileStep (s j) (hit j) st).1 (tileStep (s j) (hit j) st).2.1 a
          (W + ∑ c ∈ Finset.range 640, Real.exp (σ (640 * j + c))) A)
      ∧ (tileStep (s j) (hit j) st).2.2
          = ((T + ∑ c ∈ Finset.range 640, (if 640 * j + c = k then σ (640 * j + c) else 0) : ℝ) : EReal) := by
    intro j st W T ⟨a, A, hI⟩ hT'
    refine ⟨?_, ?_⟩
    · have h := inv_step (s j) (fun _ => (0 : ℝ)) (hne j).1 (hne j).2 hI
      rw [hW j] at h
      rw [mul_comm (Ideal.exp (st.1 - max st.1 (Finset.univ.fold max ⊥ (s j)))) st.2.1] at h
      exact ⟨_, _, h⟩
    · show st.2.2 + (∑ c, if hit j c then s j c else 0) = _
      rw [hT', hT j, ← EReal.coe_add]
  induction j with
  | zero =>
    have h := step 0 (⊥, 0, 0) 0 0 ⟨0, 0, inv_init⟩ (by simp)
    simpa [rowAfter, Finset.sum_range_add] using h
  | succ j ih =>
    have h := step (j + 1) (rowAfter s hit j) _ _ ih.1 ih.2
    have e : 640 * (j + 1 + 1) = 640 * (j + 1) + 640 := by ring
    rw [e, Finset.sum_range_add, Finset.sum_range_add]
    exact h

end stream

/-- The masked scores over all classes pick out class `k`'s. -/
theorem sum_ite_eq_range (σ : ℕ → ℝ) {k n : ℕ} (hk : k < n) :
    (∑ v ∈ Finset.range n, if v = k then σ v else 0) = σ k := by
  rw [Finset.sum_ite_eq' (Finset.range n) k σ, if_pos (Finset.mem_range.2 hk)]

/-- The streamed form's result: after the fiftieth tile, maximum plus the normaliser's logarithm
    minus the chosen class's score is `log (sum_v e^(sigma_v)) - sigma_k`. -/
theorem stream_result (σ : ℕ → ℝ) (k : ℕ) (hk : k < 32000)
    (s : ℕ → Fin 640 → EReal) (hit : ℕ → Fin 640 → Prop) [∀ j, DecidablePred (hit j)]
    (hs : ∀ j c, s j c = ((σ (640 * j + c.val) : ℝ) : EReal))
    (hhit : ∀ j c, hit j c ↔ 640 * j + c.val = k) :
    ((rowAfter s hit 49).1 + Ideal.log (rowAfter s hit 49).2.1) - (rowAfter s hit 49).2.2
      = ((Real.log (∑ v ∈ Finset.range 32000, Real.exp (σ v)) - σ k : ℝ) : EReal) := by
  obtain ⟨⟨a, A, hI⟩, hT⟩ := rowAfter_inv σ k s hit hs hhit 49
  have h32 : 640 * (49 + 1) = 32000 := by norm_num
  rw [h32] at hI hT
  have hW : 0 < ∑ v ∈ Finset.range 32000, Real.exp (σ v) :=
    Finset.sum_pos (fun v _ => Real.exp_pos _) ⟨0, Finset.mem_range.2 (by norm_num)⟩
  obtain ⟨μ, hm, hl⟩ := log_of_inv hI hW
  rw [hm, hl, hT, sum_ite_eq_range σ hk, ← EReal.coe_add, ← EReal.coe_sub]
  exact congrArg (fun x : ℝ => (x : EReal)) (by ring)

/-- The plain form's result: with `M` the row maximum taken against `-inf` and the normaliser
    summed from zero, `-((sigma_k - M) - log (0 + sum_v e^(sigma_v - M)))` is the same number. -/
theorem plain_result (σ : ℕ → ℝ) (k : Fin 32000) (s : Fin 32000 → EReal)
    (hs : ∀ v, s v = ((σ v.val : ℝ) : EReal)) :
    -((s k - max ⊥ (Finset.univ.fold max ⊥ s))
        - Ideal.log (0 + ∑ v, Ideal.exp (s v - max ⊥ (Finset.univ.fold max ⊥ s))))
      = ((Real.log (∑ v ∈ Finset.range 32000, Real.exp (σ v)) - σ k.val : ℝ) : EReal) := by
  have hne : (∀ v, s v ≠ ⊤) ∧ ∃ v, s v ≠ ⊥ :=
    ⟨fun v => by rw [hs]; exact EReal.coe_ne_top _, ⟨⟨0, by norm_num⟩, by rw [hs]; exact EReal.coe_ne_bot _⟩⟩
  have hI := inv_step s (fun _ => (0 : ℝ)) hne.1 hne.2 inv_init
  have hW : (0 : ℝ) + ∑ v : Fin 32000, wt (s v) = ∑ v ∈ Finset.range 32000, Real.exp (σ v) := by
    rw [zero_add, Finset.sum_range]
    exact Finset.sum_congr rfl fun v _ => by rw [hs, wt_coe]
  rw [hW] at hI
  have hpos : 0 < ∑ v ∈ Finset.range 32000, Real.exp (σ v) :=
    Finset.sum_pos (fun v _ => Real.exp_pos _) ⟨0, Finset.mem_range.2 (by norm_num)⟩
  obtain ⟨μ, hm, hl⟩ := log_of_inv hI hpos
  have hz : Ideal.exp (⊥ - max ⊥ (Finset.univ.fold max ⊥ s)) * 0 = 0 := mul_zero _
  rw [hz] at hl
  rw [hl, hm, hs k, ← EReal.coe_sub, ← EReal.coe_sub, ← EReal.coe_neg]
  exact congrArg (fun x : ℝ => (x : EReal)) (by ring)

end Cert.LogSumExp

end
-- ==== Proof.KRowsI.lean ====
/-
  The carried scratches read row by row on the extended reals.

  Point n of the grid is row tile n / 50 and vocabulary tile n % 50. For row r of the tile, i.e. the
  input's row g = 1024 (n / 50) + r, the three scratches after point n are the streamed state of row g
  after its tiles 0 … n % 50: the running maximum of the scores sigma(g, v), the normaliser, and the
  masked sum of the scores that picks out the row's class.
-/
import proofs.«421169_j4887672783289_3_alg».proof.Proof.KScratch
import proofs.«421169_j4887672783289_3_alg».proof.Proof.KPayload
import proofs.«421169_j4887672783289_3_alg».proof.Proof.KBlocks
import proofs.«421169_j4887672783289_3_alg».proof.Proof.KLabels
import proofs.«421169_j4887672783289_3_alg».proof.Proof.LogSumExp
import proofs.«421169_j4887672783289_3_alg».proof.Proof.Spec

noncomputable section

open scoped BigOperators

namespace Cert.KernelIdeal.RowsI

open Idealize.ShloMosaic Idealize.ShloMosaic.TcCoe Idealize.ShloMosaic.ValueIdx Idealize.SL.Sem
open Cert.KernelIdeal Cert.KernelIdeal.Gen Cert.KernelIdeal.Rows Cert.KernelIdeal.Pay Cert.KernelIdeal.Blocks
open Cert.KernelIdeal.Labels Cert.LogSumExp

variable (m : (ℓ : Loc nD τ sig) → Buf (Elt Ideal) ℓ)

/-- The three scratches at row `r` of their tile. -/
abbrev atRow (p : Trip Ideal) (r : Fin 1024) : St :=
  (p.1 (ix2 r (0 : Fin 1)), p.2.1 (ix2 r (0 : Fin 1)), p.2.2 (ix2 r (0 : Fin 1)))

/-- The input, the weight and the labels, at their literal types. -/
abbrev X (c : Dev nD) : FVec Ideal S8192x4096 .f32 := m ((c.tc : Thread nD τ).loc main_arg0)
abbrev Wt (c : Dev nD) : FVec Ideal S32000x4096 .f32 := m ((c.tc : Thread nD τ).loc main_arg1)
abbrev Tg (c : Dev nD) : IVec S8192 32 := m ((c.tc : Thread nD τ).loc main_arg2)

/-- The score of the input's row `g` against class `v` (zero outside the ranges). -/
def scoreN (c : Dev nD) (g v : ℕ) : EReal :=
  if h : g < 8192 ∧ v < 32000 then ∑ k : Fin 4096, X m c (ix2 ⟨g, h.1⟩ k) * Wt m c (ix2 ⟨v, h.2⟩ k) else 0

/-- The class the label of the input's row `g` picks (zero outside the range). -/
def clsN (c : Dev nD) (g : ℕ) : ℕ :=
  if h : g < 8192 then Cert.Spec.cls (Tg m c (ix1 ⟨g, h⟩)) else 0

/-- One tile's update at row `r`, from the three old values, at the block's own scores and the kernel's own mask. -/
theorem step_at (c : Dev nD) (t : Fin cfg0.N) (p0 p1 p2 : FVec Ideal S1024x1 .f32) (r : Fin 1024) :
    ((newMax (xb m c t) (wb m c t) p0 (ix2 r (0 : Fin 1)), newSum (xb m c t) (wb m c t) p0 p1 (ix2 r (0 : Fin 1)),
        newTgt (grid0.coords t) (xb m c t) (wb m c t) (tb m c t) p2 (ix2 r (0 : Fin 1))) : St)
      = tileStep (fun cc => blkScore (xb m c t) (wb m c t) r cc)
          (fun cc => colWord (grid0.coords t) cc = (tb m c t) (ix2 r (0 : Fin 1)))
          (p0 (ix2 r (0 : Fin 1)), p1 (ix2 r (0 : Fin 1)), p2 (ix2 r (0 : Fin 1))) := by
  refine Prod.ext ?_ (Prod.ext ?_ ?_)
  · show k0_pay2 (F := Ideal) (k0_pay9 (xb m c t) (wb m c t) p0) (ix2 r (0 : Fin 1)) = _
    rw [pay2_eq]
    exact pay9_apply (xb m c t) (wb m c t) p0 r 0
  · show k0_pay1 (F := Ideal) (k0_pay10 (xb m c t) (wb m c t) p0 p0) (k0_pay11 (xb m c t) (wb m c t) p0) p1 (ix2 r (0 : Fin 1))
      = p1 (ix2 r (0 : Fin 1)) * Ideal.exp (p0 (ix2 r (0 : Fin 1))
          - max (p0 (ix2 r (0 : Fin 1))) ((Finset.univ : Finset (Fin 640)).fold max (⊥ : EReal) fun cc => blkScore (xb m c t) (wb m c t) r cc))
        + ∑ cc : Fin 640, Ideal.exp (blkScore (xb m c t) (wb m c t) r cc
          - max (p0 (ix2 r (0 : Fin 1))) ((Finset.univ : Finset (Fin 640)).fold max (⊥ : EReal) fun cc => blkScore (xb m c t) (wb m c t) r cc))
    rw [pay1_apply, pay10_apply, pay9_apply]
    refine congrArg (_ + ·) (Finset.sum_congr rfl fun cc _ => ?_)
    rw [pay11_apply, pay9_apply]
  · exact pay8_apply (grid0.coords t) (xb m c t) (wb m c t) (tb m c t) p2 r 0

/-- A later tile of a row tile. -/
theorem next_at (c : Dev nD) (t : Fin cfg0.N) (p : Trip Ideal) (r : Fin 1024) :
    atRow (next m c t p) r
      = tileStep (fun cc => blkScore (xb m c t) (wb m c t) r cc)
          (fun cc => colWord (grid0.coords t) cc = (tb m c t) (ix2 r (0 : Fin 1))) (atRow p r) :=
  step_at m c t p.1 p.2.1 p.2.2 r

/-- A row tile's first tile: the same update, of the reset values. -/
theorem first_at (c : Dev nD) (t : Fin cfg0.N) (r : Fin 1024) :
    atRow (first m c t) r
      = tileStep (fun cc => blkScore (xb m c t) (wb m c t) r cc)
          (fun cc => colWord (grid0.coords t) cc = (tb m c t) (ix2 r (0 : Fin 1))) (⊥, 0, 0) :=
  (step_at m c t (k0_pay4 (F := Ideal)) (k0_pay5 (F := Ideal)) (k0_pay6 (F := Ideal)) r).trans
    (congrArg (tileStep _ _) (Prod.ext (pay4_apply (ix2 r (0 : Fin 1))) (Prod.ext (pay5_apply (ix2 r (0 : Fin 1))) (pay6_apply (ix2 r (0 : Fin 1))))))

/-- The block's scores are the global ones. -/
theorem blkScore_eq (c : Dev nD) (t : Fin cfg0.N) (r : Fin 1024) (cc : Fin 640) :
    blkScore (xb m c t) (wb m c t) r cc = scoreN m c (1024 * (t.val / 50) + r.val) (640 * (t.val % 50) + cc.val) := by
  unfold blkScore scoreN
  rw [dif_pos ⟨row_lt t r, cls_lt' t cc⟩]
  refine Finset.sum_congr rfl fun k _ => ?_
  rw [xb_apply m c t r k, wb_apply m c t cc k]

/-- The vocabulary tile of a point. -/
theorem coords1 : ∀ t : Fin cfg0.N, ((grid0.coords t) 1).val = t.val % 50 :=
  (by decide +kernel : ∀ t : Fin grid0.N, _)

/-- The kernel's mask hits exactly the row's class. -/
theorem hit_iff (c : Dev nD) (ht : Cert.Spec.LabelsOk (m ((c.tc : Thread nD τ).loc main_arg2)))
    (t : Fin cfg0.N) (r : Fin 1024) (cc : Fin 640) :
    colWord (grid0.coords t) cc = (tb m c t) (ix2 r (0 : Fin 1))
      ↔ 640 * (t.val % 50) + cc.val = clsN m c (1024 * (t.val / 50) + r.val) := by
  unfold clsN
  rw [dif_pos (row_lt t r), colWord_eq, coords1 t, tb_apply m c ht t r 0]
  exact ofNat_eq_iff (cls_lt' t cc) (Cert.Spec.cls_lt ht _)

/-- A point that starts a row tile leaves the first step's scratches. -/
theorem st_of_mod_zero (c : Dev nD) : ∀ (n : ℕ) (h : n < cfg0.N), n % 50 = 0 → st m c n h = first m c ⟨n, h⟩
  | 0, h, _ => st_zero m c h
  | n + 1, h, h0 => st_first m c n h h0

/-- THE INVARIANT: after point `n`, row `r` of the tile holds the streamed state of the input's row
    `1024 (n / 50) + r` after its vocabulary tiles `0 … n % 50`. -/
theorem row_inv (c : Dev nD) (ht : Cert.Spec.LabelsOk (m ((c.tc : Thread nD τ).loc main_arg2))) (r : Fin 1024) :
    ∀ (n : ℕ) (h : n < cfg0.N),
      atRow (st m c n h) r
        = rowAfter (fun j cc => scoreN m c (1024 * (n / 50) + r.val) (640 * j + cc.val))
            (fun j cc => 640 * j + cc.val = clsN m c (1024 * (n / 50) + r.val)) (n % 50)
  | 0, h => by
    rw [st_zero]
    refine (first_at m c ⟨0, h⟩ r).trans ?_
    exact tileStep_congr (fun cc => blkScore_eq m c ⟨0, h⟩ r cc) (fun cc => hit_iff m c ht ⟨0, h⟩ r cc) _
  | n + 1, h => by
    by_cases h0 : (n + 1) % 50 = 0
    · rw [st_first m c n h h0, h0]
      refine (first_at m c ⟨n + 1, h⟩ r).trans ?_
      refine tileStep_congr (fun cc => ?_) (fun cc => ?_) _
      · have e := blkScore_eq m c ⟨n + 1, h⟩ r cc
        rw [show ((⟨n + 1, h⟩ : Fin cfg0.N).val % 50) = 0 from h0] at e
        exact e
      · have e := hit_iff m c ht ⟨n + 1, h⟩ r cc
        rw [show ((⟨n + 1, h⟩ : Fin cfg0.N).val % 50) = 0 from h0] at e
        exact e
    · have e1 : (n + 1) / 50 = n / 50 := by omega
      have e2 : (n + 1) % 50 = n % 50 + 1 := by omega
      have ih := row_inv c ht r n (Nat.lt_of_succ_lt h)
      rw [st_next m c n h h0, e1, e2]
      show _ = tileStep _ _ (rowAfter _ _ (n % 50))
      rw [← ih]
      refine (next_at m c ⟨n + 1, h⟩ (st m c n (Nat.lt_of_succ_lt h)) r).trans ?_
      refine tileStep_congr (fun cc => ?_) (fun cc => ?_) _
      · have e := blkScore_eq m c ⟨n + 1, h⟩ r cc
        rw [show ((⟨n + 1, h⟩ : Fin cfg0.N).val / 50) = n / 50 from e1, show ((⟨n + 1, h⟩ : Fin cfg0.N).val % 50) = n % 50 + 1 from e2] at e
        exact e
      · have e := hit_iff m c ht ⟨n + 1, h⟩ r cc
        rw [show ((⟨n + 1, h⟩ : Fin cfg0.N).val / 50) = n / 50 from e1, show ((⟨n + 1, h⟩ : Fin cfg0.N).val % 50) = n % 50 + 1 from e2] at e
        exact e

end Cert.KernelIdeal.RowsI

end
-- ==== Proof.Tail.lean ====
/-
  The masked mean both programs end with.

  From the label vector and the per-row losses: a row whose label is the ignore label -100
  contributes zero, the losses of the other rows are summed, and the sum is divided by the number
  of such rows, taken as 1 when there is none.
-/
import Idealize.ShloMosaic.PureOps.Ideal
import Idealize.ShloMosaic.Lib.ValueIdx

noncomputable section

namespace Cert.Tail

open Idealize.ShloMosaic

abbrev S_ : Shape := ⟨0, ![]⟩
abbrev S8192 : Shape := ⟨1, ![8192]⟩

/-- The masked mean of the losses `nll` under a mask of the rows that count. -/
def maskedMeanOf (hb : S_.BroadcastsInDim S8192 (![] : Fin 0 → Fin S8192.rank)) (hr : S8192.ReducesTo [0] S_)
    (h0 : 0 < S_.numel) (hlt : 1 < 32) (mask : IVec S8192 1) (nll : FVec Ideal S8192 .f32) : FVec Ideal S_ .f32 :=
  Host.divf
    (Host.reduceAdd
      (select mask nll (broadcastInDim S8192 ![] hb (id (constant (F := Ideal) S_ .f32 0x00000000#32))))
      (constant (F := Ideal) S_ .f32 0x00000000#32) hr h0)
    (sitofp (F := Ideal) .f32
      (maxsi (Host.reduce IntOp.addi (extui 32 mask hlt) (constantI S_ 32 0#32) hr h0) (constantI S_ 32 1#32)))

/-- The masked mean of the losses `nll` under the labels `tg`: a row counts when its label is not the ignore label. -/
def maskedMean (hb : S_.BroadcastsInDim S8192 (![] : Fin 0 → Fin S8192.rank)) (hr : S8192.ReducesTo [0] S_)
    (h0 : 0 < S_.numel) (hlt : 1 < 32) (tg : IVec S8192 32) (nll : FVec Ideal S8192 .f32) : FVec Ideal S_ .f32 :=
  maskedMeanOf hb hr h0 hlt (cmpi .ne tg (broadcastInDim S8192 ![] hb (constantI S_ 32 4294967196#32))) nll

end Cert.Tail

end
-- ==== Proof.KFinal.lean ====
/-
  The kernel program's result.

  After a row tile's last vocabulary tile the output block's row r holds the loss of the input's row
  1024 a + r; the eight flushed blocks cover the [8192, 1] output array, so the array holds every
  row's loss; the operations after the region reshape it to a vector and take its masked mean.
-/
import proofs.«421169_j4887672783289_3_alg».proof.Proof.KRowsI
import proofs.«421169_j4887672783289_3_alg».proof.Proof.Tail
import Idealize.ShloMosaic.Lib.Pipeline.Value
import Idealize.ShloMosaic.Lib.StableHlo.Run
import Idealize.ShloMosaic.Lib.Tactic

noncomputable section

open scoped BigOperators

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Rows Cert.KernelIdeal.Pay Cert.KernelIdeal.Blocks
open Cert.KernelIdeal.RowsI Cert.LogSumExp

variable (m : (ℓ : Loc nD τ sig) → Buf (Elt Ideal) ℓ) (ρ : Dev nD → PrngReg)

/-- With real entries the score is the real score. -/
theorem scoreN_real (c : Dev nD) (hx : Cert.Spec.AllReal (m ((c.tc : Thread nD τ).loc main_arg0))) (hw : Cert.Spec.AllReal (m ((c.tc : Thread nD τ).loc main_arg1))) (g : Fin 8192) (v : ℕ) :
    scoreN m c g.val v = ((Cert.Spec.sigma (m ((c.tc : Thread nD τ).loc main_arg0)) (m ((c.tc : Thread nD τ).loc main_arg1)) g v : ℝ) : EReal) := by
  unfold scoreN Cert.Spec.sigma
  by_cases hv : v < 32000
  · rw [dif_pos ⟨g.isLt, hv⟩, dif_pos hv, coe_sum]
    refine Finset.sum_congr rfl fun k _ => ?_
    obtain ⟨a, ha⟩ := hx (ix2 g k)
    obtain ⟨b, hb⟩ := hw (ix2 ⟨v, hv⟩ k)
    have ha' : X m c (ix2 g k) = (a : EReal) := ha
    have hb' : Wt m c (ix2 ⟨v, hv⟩ k) = (b : EReal) := hb
    show X m c (ix2 g k) * Wt m c (ix2 ⟨v, hv⟩ k)
      = (((X m c (ix2 g k)).toReal * (Wt m c (ix2 ⟨v, hv⟩ k)).toReal : ℝ) : EReal)
    rw [ha', hb', EReal.toReal_coe, EReal.toReal_coe, EReal.coe_mul]
  · rw [dif_neg (fun h => hv h.2), dif_neg hv, EReal.coe_zero]

/-- The class of a row, read back. -/
theorem clsN_eq (c : Dev nD) (g : Fin 8192) : clsN m c g.val = Cert.Spec.cls ((m ((c.tc : Thread nD τ).loc main_arg2)) (ix1 g)) := by
  unfold clsN
  rw [dif_pos g.isLt]

/-- THE ROW'S LOSS: after a row tile's last vocabulary tile the epilogue at row `r` is the loss of the
    input's row `1024 (t / 50) + r`. -/
theorem out_row (c : Dev nD) (hx : Cert.Spec.AllReal (m ((c.tc : Thread nD τ).loc main_arg0))) (hw : Cert.Spec.AllReal (m ((c.tc : Thread nD τ).loc main_arg1))) (ht : Cert.Spec.LabelsOk (m ((c.tc : Thread nD τ).loc main_arg2)))
    (t : Fin cfg0.N) (h49 : t.val % 50 = 49) (r : Fin 1024) (u : Fin 1) :
    k0_pay3 (F := Ideal) (st m c t.val t.isLt).1 (st m c t.val t.isLt).2.1 (st m c t.val t.isLt).2.2 (ix2 r u)
      = Cert.Spec.rowLoss (m ((c.tc : Thread nD τ).loc main_arg0)) (m ((c.tc : Thread nD τ).loc main_arg1)) (m ((c.tc : Thread nD τ).loc main_arg2)) ⟨1024 * (t.val / 50) + r.val, row_lt t r⟩ := by
  obtain rfl : u = 0 := Subsingleton.elim _ _
  rw [pay3_apply]
  have hinv := row_inv m c ht r t.val t.isLt
  rw [h49] at hinv
  show ((atRow (st m c t.val t.isLt) r).1 + Ideal.log (atRow (st m c t.val t.isLt) r).2.1) - (atRow (st m c t.val t.isLt) r).2.2 = _
  rw [hinv]
  have hk : clsN m c (1024 * (t.val / 50) + r.val) < 32000 := by
    rw [clsN_eq m c ⟨1024 * (t.val / 50) + r.val, row_lt t r⟩]
    exact Cert.Spec.cls_lt ht _
  refine (stream_result (Cert.Spec.sigma (m ((c.tc : Thread nD τ).loc main_arg0)) (m ((c.tc : Thread nD τ).loc main_arg1)) ⟨1024 * (t.val / 50) + r.val, row_lt t r⟩)
    (clsN m c (1024 * (t.val / 50) + r.val)) hk _ _
    (fun j cc => scoreN_real m c hx hw ⟨1024 * (t.val / 50) + r.val, row_lt t r⟩ (640 * j + cc.val)) (fun j cc => Iff.rfl)).trans ?_
  unfold Cert.Spec.rowLoss
  rw [clsN_eq m c ⟨1024 * (t.val / 50) + r.val, row_lt t r⟩]

/-- The same at a whole index of the block. -/
theorem out_row' (c : Dev nD) (hx : Cert.Spec.AllReal (m ((c.tc : Thread nD τ).loc main_arg0))) (hw : Cert.Spec.AllReal (m ((c.tc : Thread nD τ).loc main_arg1))) (ht : Cert.Spec.LabelsOk (m ((c.tc : Thread nD τ).loc main_arg2)))
    (t : Fin cfg0.N) (h49 : t.val % 50 = 49) (y : S1024x1.Idx) :
    k0_pay3 (F := Ideal) (st m c t.val t.isLt).1 (st m c t.val t.isLt).2.1 (st m c t.val t.isLt).2.2 y
      = Cert.Spec.rowLoss (m ((c.tc : Thread nD τ).loc main_arg0)) (m ((c.tc : Thread nD τ).loc main_arg1)) (m ((c.tc : Thread nD τ).loc main_arg2)) ⟨1024 * (t.val / 50) + (y 0).val, row_lt t (y 0)⟩ :=
  (congrArg (k0_pay3 (F := Ideal) (st m c t.val t.isLt).1 (st m c t.val t.isLt).2.1 (st m c t.val t.isLt).2.2) (eq_ix2 y)).trans
    (out_row m c hx hw ht t h49 (y 0) (y 1))

/-- What the output array ends holding: every row's loss. -/
abbrev G (c : Dev nD) : S8192x1.Idx → EReal := fun i => Cert.Spec.rowLoss (m ((c.tc : Thread nD τ).loc main_arg0)) (m ((c.tc : Thread nD τ).loc main_arg1)) (m ((c.tc : Thread nD τ).loc main_arg2)) (i 0)

/-- The output window's block index at a point. -/
theorem idx3 : ∀ t : Fin cfg0.N, win0_3.index t (0 : Fin 2) = t.val / 50 ∧ win0_3.index t (1 : Fin 2) = 0 :=
  (by decide +kernel : ∀ t : Fin grid0.N, _)

/-- What a flushing point writes back is its block of the rows' losses. -/
theorem flushed_eq (c : Dev nD) (hx : Cert.Spec.AllReal (m ((c.tc : Thread nD τ).loc main_arg0))) (hw : Cert.Spec.AllReal (m ((c.tc : Thread nD τ).loc main_arg1))) (ht : Cert.Spec.LabelsOk (m ((c.tc : Thread nD τ).loc main_arg2)))
    (t : Fin cfg0.N) (hf : (cfg0.win 3).flush t = true) :
    (dats m 0 c).flushed 3 t = ((cfg0.win 3).blk t).view.read (Elt Ideal) (G m c) := by
  have h49 : t.val % 50 = 49 := (flush0_3 t).mp hf
  show (cfg0.win 3).cut (grid0.coords t) ((dats m 0 c).after 3 t) = _
  rw [after0_3, out_eq m c t.val t.isLt h49]
  funext y
  show k0_pay3 (F := Ideal) (st m c t.val t.isLt).1 (st m c t.val t.isLt).2.1 (st m c t.val t.isLt).2.2 y
    = G m c (((cfg0.win 3).blk t).view.emb y)
  refine (out_row' m c hx hw ht t h49 y).trans ?_
  show _ = Cert.Spec.rowLoss (m ((c.tc : Thread nD τ).loc main_arg0)) (m ((c.tc : Thread nD τ).loc main_arg1)) (m ((c.tc : Thread nD τ).loc main_arg2)) ((((cfg0.win 3).blk t).view.emb y) 0)
  refine congrArg (Cert.Spec.rowLoss (m ((c.tc : Thread nD τ).loc main_arg0)) (m ((c.tc : Thread nD τ).loc main_arg1)) (m ((c.tc : Thread nD τ).loc main_arg2))) (Fin.ext ?_)
  show 1024 * (t.val / 50) + (y 0).val = win0_3.index t (0 : Fin 2) * 1024 + 1 * (y 0).val
  rw [(idx3 t).1]
  omega

/-- An index of the output array is in point `t`'s block iff each coordinate is in the block's range. -/
theorem mem_blk (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v7).slice (win0_3.rect t)).set ↔ _
  rw [View.set_slice_whole, Rect.mem_set_unit]
  exact Iff.rfl

/-- The output array after the run. -/
theorem final3 (c : Dev nD) (hx : Cert.Spec.AllReal (m ((c.tc : Thread nD τ).loc main_arg0))) (hw : Cert.Spec.AllReal (m ((c.tc : Thread nD τ).loc main_arg1))) (ht : Cert.Spec.LabelsOk (m ((c.tc : Thread nD τ).loc main_arg2))) :
    (dats m 0 c).arrAt 3 cfg0.N = G m c :=
  (dats m 0 c).arrAt_eq_of_cover 3 (G m c) (flushed_eq m c hx hw ht) fun i => by
    have hN : cfg0.N = 400 := N_0
    have hi0 : (i 0).val < 8192 := (i 0).isLt
    have hi1 : (i 1).val < 1 := (i 1).isLt
    refine ⟨⟨50 * ((i 0).val / 1024) + 49, by omega⟩, (flush0_3 _).mpr (by show (50 * ((i 0).val / 1024) + 49) % 50 = 49; omega), ?_⟩
    rw [mem_blk]
    obtain ⟨e0, e1⟩ := idx3 ⟨50 * ((i 0).val / 1024) + 49, by omega⟩
    intro a
    match a with
    | ⟨0, _⟩ =>
      show win0_3.index _ (0 : Fin 2) * 1024 ≤ (i 0).val ∧ (i 0).val < win0_3.index _ (0 : Fin 2) * 1024 + 1024
      rw [e0]
      show (50 * ((i 0).val / 1024) + 49) / 50 * 1024 ≤ (i 0).val ∧ (i 0).val < (50 * ((i 0).val / 1024) + 49) / 50 * 1024 + 1024
      omega
    | ⟨1, _⟩ =>
      show win0_3.index _ (1 : Fin 2) * 1 ≤ (i 1).val ∧ (i 1).val < win0_3.index _ (1 : Fin 2) * 1 + 1
      rw [e1]
      omega

/-- The output array reshaped to a vector: the rows' losses. -/
theorem reshape_G (c : Dev nD) :
    shapeCast S8192 (G m c) shapeCasts_S8192x1_S8192 = fun i => Cert.Spec.rowLoss (m ((c.tc : Thread nD τ).loc main_arg0)) (m ((c.tc : Thread nD τ).loc main_arg1)) (m ((c.tc : Thread nD τ).loc main_arg2)) (i 0) :=
  funext fun i => shapeCast_apply (G m c) shapeCasts_S8192x1_S8192 i (ix2 (i 0) (0 : Fin 1))
    (by rewrite [Shape.rowMajor_val_two, Shape.rowMajor_val_one]; show (i 0).val * 1 + 0 = (i 0).val; omega)

/-- The result after the region's tail: the masked mean of the rows' losses. -/
theorem tail_eq (c : Dev nD) (hx : Cert.Spec.AllReal (m ((c.tc : Thread nD τ).loc main_arg0))) (hw : Cert.Spec.AllReal (m ((c.tc : Thread nD τ).loc main_arg1))) (ht : Cert.Spec.LabelsOk (m ((c.tc : Thread nD τ).loc main_arg2))) :
    Pipeline.afterTail₀ cfgs (dats m) 0 (V0 m) [hostOps1, hostOps1_1, hostOps1_2] c main_v15
      = Cert.Tail.maskedMean bcast_S_S8192 reducesTo_S8192_S_d0 h_S_ natLt_1_32 (m ((c.tc : Thread nD τ).loc main_arg2))
          (fun i => Cert.Spec.rowLoss (m ((c.tc : Thread nD τ).loc main_arg0)) (m ((c.tc : Thread nD τ).loc main_arg1)) (m ((c.tc : Thread nD τ).loc main_arg2)) (i 0)) := by
  have e7 : (Pipeline.withArrays (cfgs 0).spec c (V0 m c) (fun w => (dats m 0 c).arrAt w (cfgs 0).N)) (Proc.devRef .tc main_v7) = G m c :=
    (Pipeline.withArrays_arr (cfgs 0).spec launch0.win.arr_inj c (V0 m c) (fun w => (dats m 0 c).arrAt w (cfgs 0).N) 3).trans
      (final3 m c hx hw ht)
  have e3 : (Pipeline.withArrays (cfgs 0).spec c (V0 m c) (fun w => (dats m 0 c).arrAt w (cfgs 0).N)) (Proc.devRef .tc main_v3)
      = cmpi .ne ((m ((c.tc : Thread nD τ).loc main_arg2)) : IVec S8192 32) (broadcastInDim S8192 ![] bcast_S_S8192 (constantI S_ 32 4294967196#32)) :=
    (Pipeline.withArrays_of_ne _ c (V0 m c) _ main_v3 (by exact (by decide : ∀ w, Pipeline.arrRef spec0 w ≠ main_v3))).trans
      (V_main_v3 m c)
  unfold Pipeline.afterTail₀
  simp only [hostOps1, hostOps1_1, hostOps1_2, List.flatten_cons, List.flatten_nil, List.append_nil, List.cons_append, List.nil_append]
  after_results
  refine Eq.trans (b := Cert.Tail.maskedMeanOf bcast_S_S8192 reducesTo_S8192_S_d0 h_S_ natLt_1_32
    ((Pipeline.withArrays (cfgs 0).spec c (V0 m c) (fun w => (dats m 0 c).arrAt w (cfgs 0).N)) (Proc.devRef .tc main_v3)) (shapeCast S8192 ((Pipeline.withArrays (cfgs 0).spec c (V0 m c) (fun w => (dats m 0 c).arrAt w (cfgs 0).N)) (Proc.devRef .tc main_v7)) shapeCasts_S8192x1_S8192)) rfl ?_
  rw [e7, e3, reshape_G]
  rfl

/-- THE KERNEL'S RUN: it ends with the masked mean of the rows' losses and its arguments unchanged. -/
theorem kernel_run
    (hx : ∀ c : Dev nD, Cert.Spec.AllReal (m ((c.tc : Thread nD τ).loc main_arg0))) (hw : ∀ c : Dev nD, Cert.Spec.AllReal (m ((c.tc : Thread nD τ).loc main_arg1)))
    (ht : ∀ c : Dev nD, Cert.Spec.LabelsOk (m ((c.tc : Thread nD τ).loc main_arg2))) :
    θ_run (defs (F := Ideal)) (onTc (τ := τ) (main (F := Ideal))) ⟨m, fun _ => 0, ρ⟩ fun r => ∀ c : Dev nD,
      r.2.mem ((c.tc : Thread nD τ).loc main_v15)
          = Cert.Tail.maskedMean bcast_S_S8192 reducesTo_S8192_S_d0 h_S_ natLt_1_32 (m ((c.tc : Thread nD τ).loc main_arg2))
              (fun i => Cert.Spec.rowLoss (m ((c.tc : Thread nD τ).loc main_arg0)) (m ((c.tc : Thread nD τ).loc main_arg1)) (m ((c.tc : Thread nD τ).loc main_arg2)) (i 0))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2)) :=
  (θ_run defs _ _).mono (fun _ h c =>
    ⟨((h c).2 main_v15 (Pipeline.mem_restRefs_of main_v15 (by decide) (by decide))).trans (tail_eq m c (hx c) (hw c) (ht c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Final

end
-- ==== Proof.RefRun.lean ====
/-
  The reference program's run, read back stage by stage.

  @main is a straight line of 61 host operations, each writing a buffer of its own once. The line is
  cut into ten stretches. For each stretch and any buffer contents `W` before it: a buffer the
  stretch does not write keeps its contents, and a buffer it writes holds its operation's function
  of the operands' contents, which is the next stage `val_<buffer>` of the arguments once the
  operands read before the stretch are the stages before. Chaining the stretches, the result buffer
  after the whole line is the last stage of the three arguments' launch contents.
-/
import proofs.«421169_j4887672783289_3_alg».proof.Proof.RefReadP
import Idealize.ShloMosaic.Lib.StableHlo.Run
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## The line, cut into stretches -/

/-- Operations 1 to 2 of @main. The scores, and the maximum's initial value. -/
abbrev cA1a : List (HloOp τ sig (Elt F)) :=
  [ binary main_arg0 main_arg1 main_v0 ((fun l r => Host.dotGeneral dot_S8192x4096_S32000x4096_S8192x32000_1_1_0_0_n_n none l r) : (⟨S8192x4096, .f32⟩ : BufTy).Contents (Elt F) → (⟨S32000x4096, .f32⟩ : BufTy).Contents (Elt F) → (⟨S8192x32000, .f32⟩ : BufTy).Contents (Elt F)),
    TRef.nullary (TRef.of (T := ⟨S_, .f32⟩) main_call0_cst) (constant S_ .f32 0xFF800000#32) ]

/-- Operation 3 of @main. The row maximum. -/
abbrev cS3 : List (HloOp τ sig (Elt F)) :=
  [ TRef.binary (TRef.of (T := ⟨S8192x32000, .f32⟩) main_v0) (TRef.of (T := ⟨S_, .f32⟩) main_call0_cst) (TRef.of (T := ⟨S8192, .f32⟩) main_call0_v0) (fun x v => Host.reduce FloatOps.maximumf x v reducesTo_S8192x32000_S8192_d1 h_S_) ]

/-- Operations 4 to 8 of @main. The row maximum against minus infinity, broadcast back over the classes. -/
abbrev cA1b : List (HloOp τ sig (Elt F)) :=
  [ TRef.nullary (TRef.of (T := ⟨S_, .f32⟩) main_call0_cst_0) (constant S_ .f32 0xFF800000#32),
    TRef.unary (TRef.of (T := ⟨S_, .f32⟩) main_call0_cst_0) (TRef.of (T := ⟨S8192, .f32⟩) main_call0_v1) (broadcastInDim S8192 ![] bcast_S_S8192),
    TRef.binary (TRef.of (T := ⟨S8192, .f32⟩) main_call0_v1) (TRef.of (T := ⟨S8192, .f32⟩) main_call0_v0) (TRef.of (T := ⟨S8192, .f32⟩) main_call0_v2) maximumf,
    TRef.unary (TRef.of (T := ⟨S8192, .f32⟩) main_call0_v2) (TRef.of (T := ⟨S8192x1, .f32⟩) main_call0_v3) (broadcastInDim S8192x1 ![0] bcast_S8192_S8192x1_0),
    TRef.unary (TRef.of (T := ⟨S8192x1, .f32⟩) main_call0_v3) (TRef.of (T := ⟨S8192x32000, .f32⟩) main_call0_v4) (broadcastInDim S8192x32000 ![0, 1] bcast_S8192x1_S8192x32000_0_1) ]

/-- Operations 9 to 16 of @main. The centred scores, their exponentials' row sums, and the log-probabilities. -/
abbrev cA2 : List (HloOp τ sig (Elt F)) :=
  [ TRef.binary (TRef.of (T := ⟨S8192x32000, .f32⟩) main_v0) (TRef.of (T := ⟨S8192x32000, .f32⟩) main_call0_v4) (TRef.of (T := ⟨S8192x32000, .f32⟩) main_call0_v5) subf,
    TRef.unary (TRef.of (T := ⟨S8192x32000, .f32⟩) main_call0_v5) (TRef.of (T := ⟨S8192x32000, .f32⟩) main_call0_v6) Host.exp,
    TRef.nullary (TRef.of (T := ⟨S_, .f32⟩) main_call0_cst_1) (constant S_ .f32 0x00000000#32),
    TRef.binary (TRef.of (T := ⟨S8192x32000, .f32⟩) main_call0_v6) (TRef.of (T := ⟨S_, .f32⟩) main_call0_cst_1) (TRef.of (T := ⟨S8192, .f32⟩) main_call0_v7) (fun x v => Host.reduceAdd x v reducesTo_S8192x32000_S8192_d1 h_S_),
    TRef.unary (TRef.of (T := ⟨S8192, .f32⟩) main_call0_v7) (TRef.of (T := ⟨S8192x1, .f32⟩) main_call0_v8) (broadcastInDim S8192x1 ![0] bcast_S8192_S8192x1_0),
    TRef.unary (TRef.of (T := ⟨S8192x1, .f32⟩) main_call0_v8) (TRef.of (T := ⟨S8192x1, .f32⟩) main_call0_v9) Host.log,
    TRef.unary (TRef.of (T := ⟨S8192x1, .f32⟩) main_call0_v9) (TRef.of (T := ⟨S8192x32000, .f32⟩) main_call0_v10) (broadcastInDim S8192x32000 ![0, 1] bcast_S8192x1_S8192x32000_0_1),
    TRef.binary (TRef.of (T := ⟨S8192x32000, .f32⟩) main_call0_v5) (TRef.of (T := ⟨S8192x32000, .f32⟩) main_call0_v10) (TRef.of (T := ⟨S8192x32000, .f32⟩) main_v1) subf ]

/-- Operations 17 to 24 of @main. The validity mask and the labels with the ignore label replaced by class 0. -/
abbrev cB : List (HloOp τ sig (Elt F)) :=
  [ nullary main_c (constantI S_ 32 4294967196#32),
    unary main_c main_v2 (broadcastInDim S8192 ![] bcast_S_S8192 : (⟨S_, .i32⟩ : BufTy).Contents (Elt F) → (⟨S8192, .i32⟩ : BufTy).Contents (Elt F)),
    binary main_arg2 main_v2 main_v3 (cmpi .ne : (⟨S8192, .i32⟩ : BufTy).Contents (Elt F) → (⟨S8192, .i32⟩ : BufTy).Contents (Elt F) → (⟨S8192, .i1⟩ : BufTy).Contents (Elt F)),
    nullary main_c_0 (constantI S_ 32 0#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S8192, .i32⟩) main_call1_v1) (broadcastInDim S8192 ![] bcast_S_S8192),
    TRef.ternary (TRef.of (T := ⟨S8192, .i1⟩) main_v3) (TRef.of (T := ⟨S8192, .i32⟩) main_arg2) (TRef.of (T := ⟨S8192, .i32⟩) main_call1_v1) (TRef.of (T := ⟨S8192, .i32⟩) main_v4) select,
    unary main_v4 main_v5 (broadcastInDim S8192x1 ![0] bcast_S8192_S8192x1_0 : (⟨S8192, .i32⟩ : BufTy).Contents (Elt F) → (⟨S8192x1, .i32⟩ : BufTy).Contents (Elt F)) ]

/-- Operations 25 to 32 of @main. The wrap-around of a negative index, as a column of start indices. -/
abbrev cC : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S8192x1, .i32⟩) main_call2_v0) (broadcastInDim S8192x1 ![] bcast_S_S8192x1),
    TRef.binary (TRef.of (T := ⟨S8192x1, .i32⟩) main_v5) (TRef.of (T := ⟨S8192x1, .i32⟩) main_call2_v0) (TRef.of (T := ⟨S8192x1, .i1⟩) main_call2_v1) (cmpi .slt),
    TRef.nullary (TRef.of (T := ⟨S_, .i32⟩) main_call2_c_0) (constantI S_ 32 32000#32),
    TRef.unary (TRef.of (T := ⟨S_, .i32⟩) main_call2_c_0) (TRef.of (T := ⟨S8192x1, .i32⟩) main_call2_v2) (broadcastInDim S8192x1 ![] bcast_S_S8192x1),
    TRef.binary (TRef.of (T := ⟨S8192x1, .i32⟩) main_v5) (TRef.of (T := ⟨S8192x1, .i32⟩) main_call2_v2) (TRef.of (T := ⟨S8192x1, .i32⟩) main_call2_v3) addi,
    TRef.ternary (TRef.of (T := ⟨S8192x1, .i1⟩) main_call2_v1) (TRef.of (T := ⟨S8192x1, .i32⟩) main_call2_v3) (TRef.of (T := ⟨S8192x1, .i32⟩) main_v5) (TRef.of (T := ⟨S8192x1, .i32⟩) main_call2_v4) select,
    TRef.reshape (TRef.of (T := ⟨S8192x1, .i32⟩) main_call2_v4) (TRef.of (T := ⟨S8192x1x1, .i32⟩) main_call2_v5) rfl shapeCasts_S8192x1_S8192x1x1 ]

/-- Operations 33 to 41 of @main. The range test of the start indices, and the and-reduce's initial value. -/
abbrev cD1 : List (HloOp τ sig (Elt F)) :=
  [ TRef.nullary (TRef.of (T := ⟨S1, .i32⟩) main_call2_c_1) (constantI S1 32 31999#32),
    TRef.nullary (TRef.of (T := ⟨S_, .i32⟩) main_call2_c_2) (constantI S_ 32 0#32),
    TRef.unary (TRef.of (T := ⟨S_, .i32⟩) main_call2_c_2) (TRef.of (T := ⟨S8192x1x1, .i32⟩) main_call2_v6) (broadcastInDim S8192x1x1 ![] bcast_S_S8192x1x1),
    TRef.binary (TRef.of (T := ⟨S8192x1x1, .i32⟩) main_call2_v5) (TRef.of (T := ⟨S8192x1x1, .i32⟩) main_call2_v6) (TRef.of (T := ⟨S8192x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S8192x1x1, .i32⟩) main_call2_v9) (broadcastInDim S8192x1x1 ![0, 1, 2] bcast_S1x1x1_S8192x1x1_0_1_2),
    TRef.binary (TRef.of (T := ⟨S8192x1x1, .i32⟩) main_call2_v5) (TRef.of (T := ⟨S8192x1x1, .i32⟩) main_call2_v9) (TRef.of (T := ⟨S8192x1x1, .i1⟩) main_call2_v10) (cmpi .sle),
    TRef.binary (TRef.of (T := ⟨S8192x1x1, .i1⟩) main_call2_v7) (TRef.of (T := ⟨S8192x1x1, .i1⟩) main_call2_v10) (TRef.of (T := ⟨S8192x1x1, .i1⟩) main_call2_v11) andi,
    TRef.nullary (TRef.of (T := ⟨S_, .i1⟩) main_call2_c_3) (constantI S_ 1 1#1) ]

/-- Operation 42 of @main. The range test and-reduced over its size-one axis. -/
abbrev cS42 : List (HloOp τ sig (Elt F)) :=
  [ TRef.binary (TRef.of (T := ⟨S8192x1x1, .i1⟩) main_call2_v11) (TRef.of (T := ⟨S_, .i1⟩) main_call2_c_3) (TRef.of (T := ⟨S8192x1, .i1⟩) main_call2_v12) (fun x v => Host.reduce IntOp.andi x v reducesTo_S8192x1x1_S8192x1_d2 h_S_) ]

/-- Operations 43 to 48 of @main. The gathered log-probabilities under the range test, negated. -/
abbrev cE : List (HloOp τ sig (Elt F)) :=
  [ TRef.binary (TRef.of (T := ⟨S8192x32000, .f32⟩) main_v1) (TRef.of (T := ⟨S8192x1x1, .i32⟩) main_call2_v5) (TRef.of (T := ⟨S8192x1, .f32⟩) main_call2_v13) (fun x i => Host.gather gather_S8192x32000_S8192x1x1_S8192x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S8192x1, .f32⟩) main_call2_v14) (broadcastInDim S8192x1 ![] bcast_S_S8192x1),
    TRef.ternary (TRef.of (T := ⟨S8192x1, .i1⟩) main_call2_v12) (TRef.of (T := ⟨S8192x1, .f32⟩) main_call2_v13) (TRef.of (T := ⟨S8192x1, .f32⟩) main_call2_v14) (TRef.of (T := ⟨S8192x1, .f32⟩) main_v6) select,
    reshape main_v6 main_v7 rfl shapeCasts_S8192x1_S8192,
    unary main_v7 main_v8 (Host.negf : (⟨S8192, .f32⟩ : BufTy).Contents (Elt F) → (⟨S8192, .f32⟩ : BufTy).Contents (Elt F)) ]

/-- Operations 49 to 61 of @main. The masked sum of the losses, the count of valid rows, and their quotient. -/
abbrev cF : List (HloOp τ sig (Elt F)) :=
  [ nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S8192, .f32⟩) main_call3_v1) (broadcastInDim S8192 ![] bcast_S_S8192),
    TRef.ternary (TRef.of (T := ⟨S8192, .i1⟩) main_v3) (TRef.of (T := ⟨S8192, .f32⟩) main_v8) (TRef.of (T := ⟨S8192, .f32⟩) main_call3_v1) (TRef.of (T := ⟨S8192, .f32⟩) main_v9) select,
    unary main_v3 main_v10 ((extui 32 · natLt_1_32) : (⟨S8192, .i1⟩ : BufTy).Contents (Elt F) → (⟨S8192, .i32⟩ : BufTy).Contents (Elt F)),
    nullary main_c_1 (constantI S_ 32 0#32),
    binary main_v10 main_c_1 main_v11 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)),
    nullary main_c_2 (constantI S_ 32 1#32),
    binary main_v11 main_c_2 main_v12 (maxsi : (⟨S_, .i32⟩ : BufTy).Contents (Elt F) → (⟨S_, .i32⟩ : BufTy).Contents (Elt F) → (⟨S_, .i32⟩ : BufTy).Contents (Elt F)),
    nullary main_cst_3 (constant S_ .f32 0x00000000#32),
    binary main_v9 main_cst_3 main_v13 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v12 main_v14 (sitofp .f32 : (⟨S_, .i32⟩ : BufTy).Contents (Elt F) → (⟨S_, .f32⟩ : BufTy).Contents (Elt F)),
    binary main_v13 main_v14 main_v15 (Host.divf : (⟨S_, .f32⟩ : BufTy).Contents (Elt F) → (⟨S_, .f32⟩ : BufTy).Contents (Elt F) → (⟨S_, .f32⟩ : BufTy).Contents (Elt F)) ]

set_option maxRecDepth 8192 in
/-- The stretches in order are the line. -/
theorem ops_split : (ops : List (HloOp τ sig (Elt F))) = cA1a ++ (cS3 ++ (cA1b ++ (cA2 ++ (cB ++ (cC ++ (cD1 ++ (cS42 ++ (cE ++ (cF))))))))) := rfl

/-! ## Each stretch

Where a stretch is read through the typed references' transports, these are removed first: the transport of a
value along an equation of types is that value, up to the types. -/

theorem cA1a_v0 (W : Valuation τ sig (Elt F)) (x0 : (⟨S8192x4096, .f32⟩ : BufTy).Contents (Elt F)) (x1 : (⟨S32000x4096, .f32⟩ : BufTy).Contents (Elt F))
    (h_arg0 : W (Proc.devRef .tc main_arg0) = x0) (h_arg1 : W (Proc.devRef .tc main_arg1) = x1) :
    after (cA1a (F := F)) W (Proc.devRef .tc main_v0) = val_main_v0 (F := F) x0 x1 := by
  subst h_arg0 h_arg1
  after_results_simp
  rfl
theorem cA1a_call0_cst (W : Valuation τ sig (Elt F))  :
    after (cA1a (F := F)) W (Proc.devRef .tc main_call0_cst) = val_main_call0_cst (F := F) := by
  after_results_simp
  rfl
theorem cA1a_arg2 (W : Valuation τ sig (Elt F)) : after (cA1a (F := F)) W (Proc.devRef .tc main_arg2) = W (Proc.devRef .tc main_arg2) := by
  after_results_simp

theorem cS3_call0_v0 (W : Valuation τ sig (Elt F)) (x0 : (⟨S8192x4096, .f32⟩ : BufTy).Contents (Elt F)) (x1 : (⟨S32000x4096, .f32⟩ : BufTy).Contents (Elt F))
    (h_v0 : W (Proc.devRef .tc main_v0) = val_main_v0 (F := F) x0 x1) (h_call0_cst : W (Proc.devRef .tc main_call0_cst) = val_main_call0_cst (F := F)) :
    after (cS3 (F := F)) W (Proc.devRef .tc main_call0_v0) = val_main_call0_v0 (F := F) x0 x1 := by
  refine eq_of_heq ?_
  simp only [after_cons, after_nil]
  rw [binary_result]
  dsimp only [TRef.ofBuf, TRef.toBuf]
  rw [cast_eq_iff_heq.2 (heq_of_eq h_v0), cast_eq_iff_heq.2 (heq_of_eq h_call0_cst)]
  exact cast_heq _ _
theorem cS3_v0 (W : Valuation τ sig (Elt F)) : after (cS3 (F := F)) W (Proc.devRef .tc main_v0) = W (Proc.devRef .tc main_v0) := by
  after_results_simp
theorem cS3_arg2 (W : Valuation τ sig (Elt F)) : after (cS3 (F := F)) W (Proc.devRef .tc main_arg2) = W (Proc.devRef .tc main_arg2) := by
  after_results_simp

theorem cA1b_call0_v4 (W : Valuation τ sig (Elt F)) (x0 : (⟨S8192x4096, .f32⟩ : BufTy).Contents (Elt F)) (x1 : (⟨S32000x4096, .f32⟩ : BufTy).Contents (Elt F))
    (h_call0_v0 : W (Proc.devRef .tc main_call0_v0) = val_main_call0_v0 (F := F) x0 x1) :
    after (cA1b (F := F)) W (Proc.devRef .tc main_call0_v4) = val_main_call0_v4 (F := F) x0 x1 := by
  refine eq_of_heq ?_
  after_results_simp
  dsimp only [TRef.ofBuf, TRef.toBuf]
  simp only [cast_cast, cast_eq]
  rw [h_call0_v0]
  exact HEq.rfl
theorem cA1b_v0 (W : Valuation τ sig (Elt F)) : after (cA1b (F := F)) W (Proc.devRef .tc main_v0) = W (Proc.devRef .tc main_v0) := by
  after_results_simp
theorem cA1b_arg2 (W : Valuation τ sig (Elt F)) : after (cA1b (F := F)) W (Proc.devRef .tc main_arg2) = W (Proc.devRef .tc main_arg2) := by
  after_results_simp

theorem cA2_v1 (W : Valuation τ sig (Elt F)) (x0 : (⟨S8192x4096, .f32⟩ : BufTy).Contents (Elt F)) (x1 : (⟨S32000x4096, .f32⟩ : BufTy).Contents (Elt F))
    (h_v0 : W (Proc.devRef .tc main_v0) = val_main_v0 (F := F) x0 x1) (h_call0_v4 : W (Proc.devRef .tc main_call0_v4) = val_main_call0_v4 (F := F) x0 x1) :
    after (cA2 (F := F)) W (Proc.devRef .tc main_v1) = val_main_v1 (F := F) x0 x1 := by
  after_results_simp
  rw [h_v0, h_call0_v4]
  rfl
theorem cA2_arg2 (W : Valuation τ sig (Elt F)) : after (cA2 (F := F)) W (Proc.devRef .tc main_arg2) = W (Proc.devRef .tc main_arg2) := by
  after_results_simp

theorem cB_v3 (W : Valuation τ sig (Elt F)) (x2 : (⟨S8192, .i32⟩ : BufTy).Contents (Elt F))
    (h_arg2 : W (Proc.devRef .tc main_arg2) = x2) :
    after (cB (F := F)) W (Proc.devRef .tc main_v3) = val_main_v3 (F := F) x2 := by
  subst h_arg2
  after_results_simp
  rfl
theorem cB_v5 (W : Valuation τ sig (Elt F)) (x2 : (⟨S8192, .i32⟩ : BufTy).Contents (Elt F))
    (h_arg2 : W (Proc.devRef .tc main_arg2) = x2) :
    after (cB (F := F)) W (Proc.devRef .tc main_v5) = val_main_v5 (F := F) x2 := by
  subst h_arg2
  after_results_simp
  rfl
theorem cB_v1 (W : Valuation τ sig (Elt F)) : after (cB (F := F)) W (Proc.devRef .tc main_v1) = W (Proc.devRef .tc main_v1) := by
  after_results_simp

theorem cC_call2_v5 (W : Valuation τ sig (Elt F)) (x2 : (⟨S8192, .i32⟩ : BufTy).Contents (Elt F))
    (h_v5 : W (Proc.devRef .tc main_v5) = val_main_v5 (F := F) x2) :
    after (cC (F := F)) W (Proc.devRef .tc main_call2_v5) = val_main_call2_v5 (F := F) x2 := by
  after_results_simp
  rw [h_v5]
  rfl
theorem cC_v1 (W : Valuation τ sig (Elt F)) : after (cC (F := F)) W (Proc.devRef .tc main_v1) = W (Proc.devRef .tc main_v1) := by
  after_results_simp
theorem cC_v3 (W : Valuation τ sig (Elt F)) : after (cC (F := F)) W (Proc.devRef .tc main_v3) = W (Proc.devRef .tc main_v3) := by
  after_results_simp

theorem cD1_call2_v11 (W : Valuation τ sig (Elt F)) (x2 : (⟨S8192, .i32⟩ : BufTy).Contents (Elt F))
    (h_call2_v5 : W (Proc.devRef .tc main_call2_v5) = val_main_call2_v5 (F := F) x2) :
    after (cD1 (F := F)) W (Proc.devRef .tc main_call2_v11) = val_main_call2_v11 (F := F) x2 := by
  refine eq_of_heq ?_
  after_results_simp
  dsimp only [TRef.ofBuf, TRef.toBuf]
  simp only [cast_cast, cast_eq]
  rw [h_call2_v5]
  exact HEq.rfl
theorem cD1_call2_c_3 (W : Valuation τ sig (Elt F))  :
    after (cD1 (F := F)) W (Proc.devRef .tc main_call2_c_3) = val_main_call2_c_3 (F := F) := by
  after_results_simp
  rfl
theorem cD1_v1 (W : Valuation τ sig (Elt F)) : after (cD1 (F := F)) W (Proc.devRef .tc main_v1) = W (Proc.devRef .tc main_v1) := by
  after_results_simp
theorem cD1_v3 (W : Valuation τ sig (Elt F)) : after (cD1 (F := F)) W (Proc.devRef .tc main_v3) = W (Proc.devRef .tc main_v3) := by
  after_results_simp
theorem cD1_call2_v5 (W : Valuation τ sig (Elt F)) : after (cD1 (F := F)) W (Proc.devRef .tc main_call2_v5) = W (Proc.devRef .tc main_call2_v5) := by
  after_results_simp

theorem cS42_call2_v12 (W : Valuation τ sig (Elt F)) (x2 : (⟨S8192, .i32⟩ : BufTy).Contents (Elt F))
    (h_call2_v11 : W (Proc.devRef .tc main_call2_v11) = val_main_call2_v11 (F := F) x2) (h_call2_c_3 : W (Proc.devRef .tc main_call2_c_3) = val_main_call2_c_3 (F := F)) :
    after (cS42 (F := F)) W (Proc.devRef .tc main_call2_v12) = val_main_call2_v12 (F := F) x2 := by
  refine eq_of_heq ?_
  simp only [after_cons, after_nil]
  rw [binary_result]
  dsimp only [TRef.ofBuf, TRef.toBuf]
  rw [cast_eq_iff_heq.2 (heq_of_eq h_call2_v11), cast_eq_iff_heq.2 (heq_of_eq h_call2_c_3)]
  exact cast_heq _ _
theorem cS42_v1 (W : Valuation τ sig (Elt F)) : after (cS42 (F := F)) W (Proc.devRef .tc main_v1) = W (Proc.devRef .tc main_v1) := by
  after_results_simp
theorem cS42_v3 (W : Valuation τ sig (Elt F)) : after (cS42 (F := F)) W (Proc.devRef .tc main_v3) = W (Proc.devRef .tc main_v3) := by
  after_results_simp
theorem cS42_call2_v5 (W : Valuation τ sig (Elt F)) : after (cS42 (F := F)) W (Proc.devRef .tc main_call2_v5) = W (Proc.devRef .tc main_call2_v5) := by
  after_results_simp

theorem cE_v8 (W : Valuation τ sig (Elt F)) (x0 : (⟨S8192x4096, .f32⟩ : BufTy).Contents (Elt F)) (x1 : (⟨S32000x4096, .f32⟩ : BufTy).Contents (Elt F)) (x2 : (⟨S8192, .i32⟩ : BufTy).Contents (Elt F))
    (h_v1 : W (Proc.devRef .tc main_v1) = val_main_v1 (F := F) x0 x1) (h_call2_v5 : W (Proc.devRef .tc main_call2_v5) = val_main_call2_v5 (F := F) x2) (h_call2_v12 : W (Proc.devRef .tc main_call2_v12) = val_main_call2_v12 (F := F) x2) :
    after (cE (F := F)) W (Proc.devRef .tc main_v8) = val_main_v8 (F := F) x0 x1 x2 := by
  after_results_simp
  rw [h_v1, h_call2_v5, h_call2_v12]
  rfl
theorem cE_v3 (W : Valuation τ sig (Elt F)) : after (cE (F := F)) W (Proc.devRef .tc main_v3) = W (Proc.devRef .tc main_v3) := by
  after_results_simp

theorem cF_v15 (W : Valuation τ sig (Elt F)) (x0 : (⟨S8192x4096, .f32⟩ : BufTy).Contents (Elt F)) (x1 : (⟨S32000x4096, .f32⟩ : BufTy).Contents (Elt F)) (x2 : (⟨S8192, .i32⟩ : BufTy).Contents (Elt F))
    (h_v3 : W (Proc.devRef .tc main_v3) = val_main_v3 (F := F) x2) (h_v8 : W (Proc.devRef .tc main_v8) = val_main_v8 (F := F) x0 x1 x2) :
    after (cF (F := F)) W (Proc.devRef .tc main_v15) = val_main_v15 (F := F) x0 x1 x2 := by
  after_results_simp
  rw [h_v3, h_v8]
  rfl

/-! ## The whole line -/

/-- After the whole line the result buffer holds the last stage of the arguments' contents. -/
theorem v15_eq (V : Valuation τ sig (Elt F)) :
    after (ops (F := F)) V (Proc.devRef .tc main_v15)
      = val_main_v15 (F := F) (V (Proc.devRef .tc main_arg0)) (V (Proc.devRef .tc main_arg1)) (V (Proc.devRef .tc main_arg2)) := by
  rw [ops_split, StableHlo.after_append, StableHlo.after_append, StableHlo.after_append, StableHlo.after_append, StableHlo.after_append, StableHlo.after_append, StableHlo.after_append, StableHlo.after_append, StableHlo.after_append]
  have k0_arg0 : V (Proc.devRef .tc main_arg0) = V (Proc.devRef .tc main_arg0) := rfl
  have k0_arg1 : V (Proc.devRef .tc main_arg1) = V (Proc.devRef .tc main_arg1) := rfl
  have k0_arg2 : V (Proc.devRef .tc main_arg2) = V (Proc.devRef .tc main_arg2) := rfl
  have k1_v0 := cA1a_v0 V _ _ k0_arg0 k0_arg1
  have k1_call0_cst := cA1a_call0_cst V
  have k1_arg2 := (cA1a_arg2 V).trans k0_arg2
  clear k0_arg0 k0_arg1 k0_arg2
  generalize after (cA1a (F := F)) V = W1 at k1_v0 k1_call0_cst k1_arg2 ⊢
  have k2_call0_v0 := cS3_call0_v0 W1 _ _ k1_v0 k1_call0_cst
  have k2_v0 := (cS3_v0 W1).trans k1_v0
  have k2_arg2 := (cS3_arg2 W1).trans k1_arg2
  clear k1_v0 k1_call0_cst k1_arg2
  generalize after (cS3 (F := F)) W1 = W2 at k2_call0_v0 k2_v0 k2_arg2 ⊢
  have k3_call0_v4 := cA1b_call0_v4 W2 _ _ k2_call0_v0
  have k3_v0 := (cA1b_v0 W2).trans k2_v0
  have k3_arg2 := (cA1b_arg2 W2).trans k2_arg2
  clear k2_call0_v0 k2_v0 k2_arg2
  generalize after (cA1b (F := F)) W2 = W3 at k3_call0_v4 k3_v0 k3_arg2 ⊢
  have k4_v1 := cA2_v1 W3 _ _ k3_v0 k3_call0_v4
  have k4_arg2 := (cA2_arg2 W3).trans k3_arg2
  clear k3_call0_v4 k3_v0 k3_arg2
  generalize after (cA2 (F := F)) W3 = W4 at k4_v1 k4_arg2 ⊢
  have k5_v3 := cB_v3 W4 _ k4_arg2
  have k5_v5 := cB_v5 W4 _ k4_arg2
  have k5_v1 := (cB_v1 W4).trans k4_v1
  clear k4_v1 k4_arg2
  generalize after (cB (F := F)) W4 = W5 at k5_v3 k5_v5 k5_v1 ⊢
  have k6_call2_v5 := cC_call2_v5 W5 _ k5_v5
  have k6_v1 := (cC_v1 W5).trans k5_v1
  have k6_v3 := (cC_v3 W5).trans k5_v3
  clear k5_v3 k5_v5 k5_v1
  generalize after (cC (F := F)) W5 = W6 at k6_call2_v5 k6_v1 k6_v3 ⊢
  have k7_call2_v11 := cD1_call2_v11 W6 _ k6_call2_v5
  have k7_call2_c_3 := cD1_call2_c_3 W6
  have k7_v1 := (cD1_v1 W6).trans k6_v1
  have k7_v3 := (cD1_v3 W6).trans k6_v3
  have k7_call2_v5 := (cD1_call2_v5 W6).trans k6_call2_v5
  clear k6_call2_v5 k6_v1 k6_v3
  generalize after (cD1 (F := F)) W6 = W7 at k7_call2_v11 k7_call2_c_3 k7_v1 k7_v3 k7_call2_v5 ⊢
  have k8_call2_v12 := cS42_call2_v12 W7 _ k7_call2_v11 k7_call2_c_3
  have k8_v1 := (cS42_v1 W7).trans k7_v1
  have k8_v3 := (cS42_v3 W7).trans k7_v3
  have k8_call2_v5 := (cS42_call2_v5 W7).trans k7_call2_v5
  clear k7_call2_v11 k7_call2_c_3 k7_v1 k7_v3 k7_call2_v5
  generalize after (cS42 (F := F)) W7 = W8 at k8_call2_v12 k8_v1 k8_v3 k8_call2_v5 ⊢
  have k9_v8 := cE_v8 W8 _ _ _ k8_v1 k8_call2_v5 k8_call2_v12
  have k9_v3 := (cE_v3 W8).trans k8_v3
  clear k8_call2_v12 k8_v1 k8_v3 k8_call2_v5
  generalize after (cE (F := F)) W8 = W9 at k9_v8 k9_v3 ⊢
  exact cF_v15 W9 _ _ _ k9_v3 k9_v8

/-- On every device, for any float values, from any memory with zero counters: every weakly fair
    execution of @main terminates with the result buffer at the last stage of the arguments'
    launch contents, and the arguments unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15)
          = val_main_v15 (F := F) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v15).trans (v15_eq (launchContents m c)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.RefRun

end
-- ==== Proof.RefRead.lean ====
/-
  The reference program's result read row by row: its per-row losses are the rows' losses of the
  specification, and its result is their masked mean.

  Row n of the reference: the logits s_v = sum_h x[n,h] w[v,h] are, under the precondition, the
  coerced real scores sigma_v. The log-softmax subtracts the row maximum M = max(-inf, max_v s_v)
  and then log (0 + sum_v e^(s_v - M)). The label word t is replaced by 0 when it is the ignore
  label; the resulting word is a class below 32000 with a clear sign bit, so the wrap-around select
  keeps it, both range tests hold, the gather reads the log-probability of exactly that class and
  the select on the range test returns it. Negated, that is log (sum_v e^(sigma_v)) - sigma_(cls t).
-/
import proofs.«421169_j4887672783289_3_alg».proof.Defs
import proofs.«421169_j4887672783289_3_alg».proof.Proof.RefReadP
import proofs.«421169_j4887672783289_3_alg».proof.Proof.RefRun
import proofs.«421169_j4887672783289_3_alg».proof.Proof.Spec
import proofs.«421169_j4887672783289_3_alg».proof.Proof.Tail
import proofs.«421169_j4887672783289_3_alg».proof.Proof.LogSumExp
import Idealize.ShloMosaic.Lib.ValueIdx
import Idealize.ShloMosaic.Lib.ReduceAll
import Idealize.ShloMosaic.PureOps.Reduce
import Idealize.ShloMosaic.PureOps.Ideal.Laws

noncomputable section

namespace Cert.RefRead

open Idealize.ShloMosaic Idealize.ShloMosaic.TcCoe Idealize.SL.Sem
open Cert.ReferenceIdeal Cert.ReferenceIdeal.Gen
open Idealize.ShloMosaic.ValueIdx
open Cert.ReferenceIdeal.ReadP

/-! ## Three shape operations read at a row -/

theorem red_d2 : S8192x1x1.Reduces [2] S8192x1 := by decide
theorem red_d1 : S8192x32000.Reduces [1] S8192 := by decide

/-- A fold over the one-element index set is one application of the operation. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- The gather with batching axis 0 and the start index naming axis 1, at row `n`: the operand at
    `(n, c)` with `c` the start index `idx[n, 0, 0]` read signed and clamped into `[0, 31999]`. -/
theorem gather_row {α : Type} (x : S8192x32000.Idx → α) (idx : IVec S8192x1x1 32) (n : Fin 8192) :
    Host.gather gather_S8192x32000_S8192x1x1_S8192x1_n_1_0_0_1_2_11 x idx (ix2 n (0 : Fin 1))
      = x (ix2 n ⟨min (idx (ix3 n (0 : Fin 1) (0 : Fin 1))).toInt.toNat 31999, by omega⟩) := by
  unfold Host.gather
  congr 1
  funext a
  refine Fin.ext ?_
  match a with
  | ⟨0, _⟩ =>
    show gather_S8192x32000_S8192x1x1_S8192x1_n_1_0_0_1_2_11.start (ix2 n (0 : Fin 1)) idx 0
      + gather_S8192x32000_S8192x1x1_S8192x1_n_1_0_0_1_2_11.batchCoord (ix2 n (0 : Fin 1)) 0
      + gather_S8192x32000_S8192x1x1_S8192x1_n_1_0_0_1_2_11.offCoord (ix2 n (0 : Fin 1)) 0 = n.val
    rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  | ⟨1, _⟩ =>
    show gather_S8192x32000_S8192x1x1_S8192x1_n_1_0_0_1_2_11.start (ix2 n (0 : Fin 1)) idx 1
      + gather_S8192x32000_S8192x1x1_S8192x1_n_1_0_0_1_2_11.batchCoord (ix2 n (0 : Fin 1)) 1
      + gather_S8192x32000_S8192x1x1_S8192x1_n_1_0_0_1_2_11.offCoord (ix2 n (0 : Fin 1)) 1 = _
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (1 : Fin 2) ∈ gather_S8192x32000_S8192x1x1_S8192x1_n_1_0_0_1_2_11.startIndexMap by decide)]
    have hsi : gather_S8192x32000_S8192x1x1_S8192x1_n_1_0_0_1_2_11.siIdx (ix2 n (0 : Fin 1))
        ⟨List.idxOf (1 : Fin 2) gather_S8192x32000_S8192x1x1_S8192x1_n_1_0_0_1_2_11.startIndexMap,
          List.idxOf_lt_length_iff.2 (show (1 : Fin 2) ∈ gather_S8192x32000_S8192x1x1_S8192x1_n_1_0_0_1_2_11.startIndexMap by decide)⟩
          = ix3 n (0 : Fin 1) (0 : Fin 1) := by
      funext b; refine Fin.ext ?_
      match b with
      | ⟨0, _⟩ => rfl
      | ⟨1, _⟩ => rfl
      | ⟨2, _⟩ => rfl
    rw [hsi]
    rfl

/-- The and-reduce over the size-one last axis, at row `n`: 1 when the initial word and the row's one
    entry are. -/
theorem and_row (x : S8192x1x1.Idx → BitVec 1) (init : S_.Idx → BitVec 1) (hi : init (Shape.Idx.first h_S_) = 1#1)
    (n : Fin 8192) (hx : x (ix3 n (0 : Fin 1) (0 : Fin 1)) = 1#1) :
    Host.reduce IntOp.andi x init reducesTo_S8192x1x1_S8192x1_d2 h_S_ (ix2 n (0 : Fin 1)) = 1#1 := by
  rw [Host.reduce_eq_fold_single IntOp.andi x init reducesTo_S8192x1x1_S8192x1_d2 red_d2 h_S_]
  rw [hi]
  refine (fold_fin_one IntOp.andi 1#1 (x ∘ red_d2.lift (ix2 n (0 : Fin 1)))).trans ?_
  have e : red_d2.lift (ix2 n (0 : Fin 1)) (0 : Fin 1) = ix3 n (0 : Fin 1) (0 : Fin 1) := by
    funext b; refine Fin.ext ?_
    match b with
    | ⟨0, _⟩ => rfl
    | ⟨1, _⟩ => rfl
    | ⟨2, _⟩ => rfl
  show IntOp.andi (x _) 1#1 = 1#1
  rw [e, hx]
  rfl

/-- The maximum-reduce over axis 1, at row `n`: the fold of the maximum from the initial value over
    the row's entries. -/
theorem max_row (x : S8192x32000.Idx → EReal) (init : S_.Idx → EReal) (n : Fin 8192) :
    Host.reduce (FloatOps.maximumf (F := Ideal) (φ := .f32)) x init reducesTo_S8192x32000_S8192_d1 h_S_ (ix1 n)
      = (Finset.univ : Finset (Fin 32000)).fold max (init (Shape.Idx.first h_S_)) (fun v => x (ix2 n v)) := by
  rw [Host.reduce_eq_fold_single (FloatOps.maximumf (F := Ideal) (φ := .f32)) x init reducesTo_S8192x32000_S8192_d1 red_d1 h_S_]
  have e : (x ∘ red_d1.lift (ix1 n)) = fun v : Fin 32000 => x (ix2 n v) := by
    funext v
    show x _ = x _
    congr 1
    funext b; refine Fin.ext ?_
    match b with
    | ⟨0, _⟩ => rfl
    | ⟨1, _⟩ => rfl
  rw [e]
  rfl

/-! ## The log-softmax of row `n` -/

section Row

variable (x0 : (⟨S8192x4096, .f32⟩ : BufTy).Contents (Elt Ideal)) (x1 : (⟨S32000x4096, .f32⟩ : BufTy).Contents (Elt Ideal))
  (x2 : (⟨S8192, .i32⟩ : BufTy).Contents (Elt Ideal))

/-- The logit of row `n` and class `v` is the coerced real score. -/
theorem logit_eq (hx : Cert.Spec.AllReal x0) (hw : Cert.Spec.AllReal x1) (n : Fin 8192) (v : Fin 32000) :
    val_main_v0 (F := Ideal) x0 x1 (ix2 n v) = ((Cert.Spec.sigma x0 x1 n v.val : ℝ) : EReal) := by
  rw [val_main_v0_apply]
  unfold Cert.Spec.sigma
  rw [dif_pos v.isLt, Cert.LogSumExp.coe_sum]
  refine Finset.sum_congr rfl fun k _ => ?_
  have el : lidx_main_v0 (ix2 n v) k = ix2 n k := by
    funext a; match a with | ⟨0, _⟩ => rfl | ⟨1, _⟩ => rfl
  have er : ridx_main_v0 (ix2 n v) k = ix2 (⟨v.val, v.isLt⟩ : Fin 32000) k := by
    funext a; match a with | ⟨0, _⟩ => rfl | ⟨1, _⟩ => rfl
  rw [el, er]
  obtain ⟨a, ha⟩ := hx (ix2 n k)
  obtain ⟨b, hb⟩ := hw (ix2 (⟨v.val, v.isLt⟩ : Fin 32000) k)
  rw [ha, hb, EReal.toReal_coe, EReal.toReal_coe, EReal.coe_mul]

/-- The row's scores, and its maximum taken against `-inf` twice, as the reference does. -/
abbrev sc (n : Fin 8192) : Fin 32000 → EReal := fun v => val_main_v0 (F := Ideal) x0 x1 (ix2 n v)
abbrev mx (n : Fin 8192) : EReal := max ⊥ (Finset.univ.fold max ⊥ (sc x0 x1 n))

theorem ofBits_ninf : FloatOps.ofBits (F := Ideal) .f32 0xFF800000#32 = (⊥ : EReal) := by
  simp [Ideal.ofBits, Ideal.ieee]

theorem rowmax_eq (n : Fin 8192) : val_main_call0_v2 (F := Ideal) x0 x1 (ix1 n) = mx x0 x1 n := by
  rw [val_main_call0_v2_apply, val_main_call0_v1_apply, val_main_call0_cst_0_apply]
  unfold val_main_call0_v0
  rw [max_row, val_main_call0_cst_apply, ofBits_ninf]
  rfl

theorem centered_eq (n : Fin 8192) (v : Fin 32000) :
    val_main_call0_v5 (F := Ideal) x0 x1 (ix2 n v) = sc x0 x1 n v - mx x0 x1 n := by
  have e4 : idx_main_call0_v4 (ix2 n v) = ix2 n (0 : Fin 1) := by
    funext a; match a with | ⟨0, _⟩ => rfl | ⟨1, _⟩ => rfl
  have e3 : idx_main_call0_v3 (ix2 n (0 : Fin 1)) = ix1 n := by
    funext a; match a with | ⟨0, _⟩ => rfl
  rw [val_main_call0_v5_apply, val_main_call0_v4_apply, e4, val_main_call0_v3_apply, e3, rowmax_eq]
  rfl

theorem norm_eq (n : Fin 8192) :
    val_main_call0_v7 (F := Ideal) x0 x1 (ix1 n) = 0 + ∑ v : Fin 32000, Ideal.exp (sc x0 x1 n v - mx x0 x1 n) := by
  rw [val_main_call0_v7_apply, val_main_call0_cst_1_apply]
  have hz : FloatOps.ofBits (F := Ideal) .f32 0x00000000#32 = (0 : EReal) := Ideal.ofBits_zero_f32
  rw [hz]
  refine congrArg (0 + ·) (Finset.sum_congr rfl fun v _ => ?_)
  have e7 : idx_main_call0_v7 (ix1 n) v = ix2 n v := by
    funext a; match a with | ⟨0, _⟩ => rfl | ⟨1, _⟩ => rfl
  rw [e7, val_main_call0_v6_apply, centered_eq]
  rfl

theorem logp_eq (n : Fin 8192) (v : Fin 32000) :
    val_main_v1 (F := Ideal) x0 x1 (ix2 n v)
      = (sc x0 x1 n v - mx x0 x1 n) - Ideal.log (0 + ∑ u : Fin 32000, Ideal.exp (sc x0 x1 n u - mx x0 x1 n)) := by
  have e10 : idx_main_call0_v10 (ix2 n v) = ix2 n (0 : Fin 1) := by
    funext a; match a with | ⟨0, _⟩ => rfl | ⟨1, _⟩ => rfl
  have e8 : idx_main_call0_v8 (ix2 n (0 : Fin 1)) = ix1 n := by
    funext a; match a with | ⟨0, _⟩ => rfl
  rw [val_main_v1_apply, val_main_call0_v10_apply, e10, val_main_call0_v9_apply, val_main_call0_v8_apply, e8,
    Ideal.subf_def, Ideal.hostUnary_log_def, centered_eq, norm_eq]

/-! ## The label of row `n` -/

/-- The label with the ignore label replaced by class 0. -/
abbrev safeW (t : BitVec 32) : BitVec 32 := if t = 4294967196#32 then 0#32 else t

theorem safe_eq (n : Fin 8192) : val_main_v4 (F := Ideal) x2 (ix1 n) = safeW (x2 (ix1 n)) := by
  rw [val_main_v4_apply, val_main_v3_apply, val_main_v2_apply, val_main_c_apply, val_main_call1_v1_apply,
    val_main_call1_v0_apply, val_main_c_0_apply]
  by_cases h : x2 (ix1 n) = 4294967196#32
  · have hc : IntOp.cmpi .ne (x2 (ix1 n)) 4294967196#32 = 0#1 :=
      eq_zero_of_ne_one fun h1 => (IntOp.cmpi_ne.1 h1) h
    rw [hc, select_zero]
    exact (if_pos h).symm
  · rw [IntOp.cmpi_ne.2 h, select_one]
    exact (if_neg h).symm

/-- Under the labels' precondition the replaced label is a class: its signed reading is the class. -/
theorem safe_facts {t : BitVec 32} (h : t.toInt < 32000 ∧ (0 ≤ t.toInt ∨ t = 4294967196#32)) :
    0 ≤ (safeW t).toInt ∧ (safeW t).toInt < 32000 ∧ (safeW t).toInt.toNat = Cert.Spec.cls t := by
  unfold Cert.Spec.cls
  by_cases e : t = 4294967196#32
  · simp only [safeW, if_pos e]
    decide
  · simp only [safeW, if_neg e]
    obtain ⟨hlt, hge | he⟩ := h
    · refine ⟨hge, hlt, ?_⟩
      have h1 := BitVec.toInt_eq_toNat_cond t
      have h2 := t.isLt
      split_ifs at h1 <;> omega
    · exact absurd he e

theorem toInt_zero32 : (0#32 : BitVec 32).toInt = 0 := by decide
theorem toInt_31999 : (31999#32 : BitVec 32).toInt = 31999 := by decide

/-- The wrap-around select keeps a word with a clear sign bit. -/
theorem idx5_eq (n : Fin 8192) (h0 : 0 ≤ (safeW (x2 (ix1 n))).toInt) :
    val_main_call2_v5 (F := Ideal) x2 (ix3 n (0 : Fin 1) (0 : Fin 1)) = safeW (x2 (ix1 n)) := by
  have e5 : idx_main_call2_v5 (ix3 n (0 : Fin 1) (0 : Fin 1)) = ix2 n (0 : Fin 1) := by
    funext a; refine Fin.ext ?_
    match a with
    | ⟨0, _⟩ =>
      show ((n.val * 1 + (0 : Fin 1).val) * 1 + (0 : Fin 1).val) / 1 = n.val
      simp
    | ⟨1, _⟩ => rfl
  have e6 : idx_main_v5 (ix2 n (0 : Fin 1)) = ix1 n := by
    funext a; match a with | ⟨0, _⟩ => rfl
  rw [val_main_call2_v5_apply, e5, val_main_call2_v4_apply, val_main_call2_v1_apply, val_main_v5_apply, e6,
    val_main_call2_v0_apply, val_main_call2_c_apply, safe_eq]
  have hc : IntOp.cmpi .slt (safeW (x2 (ix1 n))) 0#32 = 0#1 :=
    eq_zero_of_ne_one fun h1 => by
      have h2 := IntOp.cmpi_slt.1 h1
      rw [toInt_zero32] at h2
      omega
  rw [hc, select_zero]

/-- Both range tests hold of a class. -/
theorem inb_eq (n : Fin 8192) (h0 : 0 ≤ (safeW (x2 (ix1 n))).toInt) (h1 : (safeW (x2 (ix1 n))).toInt < 32000) :
    val_main_call2_v12 (F := Ideal) x2 (ix2 n (0 : Fin 1)) = 1#1 := by
  unfold val_main_call2_v12
  refine and_row _ _ rfl n ?_
  rw [val_main_call2_v11_apply, val_main_call2_v7_apply, val_main_call2_v10_apply, idx5_eq x2 n h0,
    val_main_call2_v6_apply, val_main_call2_c_2_apply, val_main_call2_v9_apply, val_main_call2_v8_apply,
    val_main_call2_c_1_apply]
  exact IntOp.andi_eq_one.2 ⟨IntOp.cmpi_sge.2 (by rw [toInt_zero32]; exact h0),
    IntOp.cmpi_sle.2 (by rw [toInt_31999]; omega)⟩

/-- The gather reads the log-probability of the label's class. -/
theorem gathered_eq (ht : Cert.Spec.LabelsOk x2) (n : Fin 8192) :
    val_main_call2_v13 (F := Ideal) x0 x1 x2 (ix2 n (0 : Fin 1))
      = val_main_v1 (F := Ideal) x0 x1 (ix2 n ⟨Cert.Spec.cls (x2 (ix1 n)), Cert.Spec.cls_lt ht (ix1 n)⟩) := by
  obtain ⟨h0, h1, h2⟩ := safe_facts (ht (ix1 n))
  have hlt := Cert.Spec.cls_lt ht (ix1 n)
  unfold val_main_call2_v13
  rw [gather_row]
  have e : (⟨min (val_main_call2_v5 (F := Ideal) x2 (ix3 n (0 : Fin 1) (0 : Fin 1))).toInt.toNat 31999, by omega⟩ : Fin 32000)
      = ⟨Cert.Spec.cls (x2 (ix1 n)), hlt⟩ := by
    refine Fin.ext ?_
    show min (val_main_call2_v5 (F := Ideal) x2 (ix3 n (0 : Fin 1) (0 : Fin 1))).toInt.toNat 31999 = Cert.Spec.cls (x2 (ix1 n))
    rw [idx5_eq x2 n h0, h2]
    omega
  rw [e]

/-- The reference's loss of row `n`. -/
theorem nll_row (hx : Cert.Spec.AllReal x0) (hw : Cert.Spec.AllReal x1) (ht : Cert.Spec.LabelsOk x2) (n : Fin 8192) :
    val_main_v8 (F := Ideal) x0 x1 x2 (ix1 n) = Cert.Spec.rowLoss x0 x1 x2 n := by
  obtain ⟨h0, h1, _⟩ := safe_facts (ht (ix1 n))
  have e7 : idx_main_v7 (ix1 n) = ix2 n (0 : Fin 1) := by
    funext a; refine Fin.ext ?_
    match a with
    | ⟨0, _⟩ =>
      show n.val / 1 = n.val
      simp
    | ⟨1, _⟩ => rfl
  rw [val_main_v8_apply, val_main_v7_apply, e7, val_main_v6_apply, inb_eq x2 n h0 h1, select_one,
    gathered_eq x0 x1 x2 ht n, logp_eq]
  unfold Cert.Spec.rowLoss
  exact Cert.LogSumExp.plain_result (Cert.Spec.sigma x0 x1 n) ⟨Cert.Spec.cls (x2 (ix1 n)), Cert.Spec.cls_lt ht (ix1 n)⟩
    (sc x0 x1 n) (fun v => logit_eq x0 x1 hx hw n v)

end Row

/-- The reference's per-row losses (the negated gathered log-probabilities) are the rows' losses. -/
theorem ref_nll (x0 : (⟨S8192x4096, .f32⟩ : BufTy).Contents (Elt Ideal)) (x1 : (⟨S32000x4096, .f32⟩ : BufTy).Contents (Elt Ideal))
    (x2 : (⟨S8192, .i32⟩ : BufTy).Contents (Elt Ideal))
    (hx : Cert.Spec.AllReal x0) (hw : Cert.Spec.AllReal x1) (ht : Cert.Spec.LabelsOk x2) :
    Cert.ReferenceIdeal.ReadP.val_main_v8 (F := Ideal) x0 x1 x2 = fun i => Cert.Spec.rowLoss x0 x1 x2 (i 0) := by
  funext i
  obtain ⟨n, rfl⟩ : ∃ n : Fin 8192, i = ix1 n := ⟨i 0, eq_ix1 i⟩
  exact nll_row x0 x1 x2 hx hw ht n

/-- The reference's result is the masked mean of its per-row losses. -/
theorem ref_result (x0 : (⟨S8192x4096, .f32⟩ : BufTy).Contents (Elt Ideal)) (x1 : (⟨S32000x4096, .f32⟩ : BufTy).Contents (Elt Ideal))
    (x2 : (⟨S8192, .i32⟩ : BufTy).Contents (Elt Ideal)) :
    Cert.ReferenceIdeal.ReadP.val_main_v15 (F := Ideal) x0 x1 x2
      = Cert.Tail.maskedMean bcast_S_S8192 reducesTo_S8192_S_d0 h_S_ natLt_1_32 x2
          (Cert.ReferenceIdeal.ReadP.val_main_v8 (F := Ideal) x0 x1 x2) := by
  unfold Cert.Tail.maskedMean Cert.Tail.maskedMeanOf val_main_v15 val_main_v14 val_main_v13 val_main_v12 val_main_v11 val_main_v10 val_main_v9
    val_main_v3 val_main_v2 val_main_c val_main_c_1 val_main_c_2 val_main_cst_3 val_main_call3_v1 val_main_call3_v0
    val_main_cst
  rfl

/-- The reference's run: it ends with the masked mean of the rows' losses and its arguments unchanged. -/
theorem ref_run (m : (ℓ : Loc nD τ sig) → Buf (Elt Ideal) ℓ) (ρ : Dev nD → PrngReg)
    (hx : ∀ c : Dev nD, Cert.Spec.AllReal (m ((c.tc : Thread nD τ).loc main_arg0)))
    (hw : ∀ c : Dev nD, Cert.Spec.AllReal (m ((c.tc : Thread nD τ).loc main_arg1)))
    (ht : ∀ c : Dev nD, Cert.Spec.LabelsOk (m ((c.tc : Thread nD τ).loc main_arg2))) :
    θ_run (defs (F := Ideal)) (onTc (τ := τ) (main (F := Ideal))) ⟨m, fun _ => 0, ρ⟩ fun r => ∀ c : Dev nD,
      r.2.mem ((c.tc : Thread nD τ).loc main_v15)
          = Cert.Tail.maskedMean bcast_S_S8192 reducesTo_S8192_S_d0 h_S_ natLt_1_32 (m ((c.tc : Thread nD τ).loc main_arg2))
              (fun i => Cert.Spec.rowLoss (m ((c.tc : Thread nD τ).loc main_arg0)) (m ((c.tc : Thread nD τ).loc main_arg1))
                (m ((c.tc : Thread nD τ).loc main_arg2)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c => by
      obtain ⟨h1, h2, h3, h4⟩ := h c
      refine ⟨?_, h2, h3, h4⟩
      rw [h1, ref_result, ref_nll _ _ _ (hx c) (hw c) (ht c)])
    (Cert.RefRun.run_stages (F := Ideal) m ρ)

end Cert.RefRead

end
-- ==== Proof.lean ====
/-
  The kernel computes, per row, the softmax cross-entropy of the row's scores against the row's
  class, streaming over 50 vocabulary tiles with a running maximum; the reference takes the plain
  log-softmax and gathers the class's entry. Under the precondition (every entry of the two float
  inputs a real number; every label below 32000 and non-negative or the ignore label) both end at
  the masked mean of the same per-row losses log (sum_v e^(sigma_v)) - sigma_class:

  * the kernel's three carried scratches after every grid point are the streamed state of each row
    (an induction over the points), the last point of a row tile writes (max + log normaliser) - score,
    and the eight written blocks cover the output array;
  * the streamed state's invariant (normaliser = e^(-max) times the total weight seen) gives
    max + log normaliser = log (sum_v e^(sigma_v)), and the mask hits the class exactly once;
  * the reference's gathered log-probability, negated, is the same number by real arithmetic;
  * both programs then take the same masked mean.
  The ideal pass rewrote nothing, so the kernel's idealization is its own text read on the extended reals.
-/
import proofs.«421169_j4887672783289_3_alg».proof.Defs
import proofs.«421169_j4887672783289_3_alg».proof.Proof.Gen.Kernel
import proofs.«421169_j4887672783289_3_alg».proof.Proof.Gen.Kernel.Frame
import proofs.«421169_j4887672783289_3_alg».proof.Proof.Gen.KernelIdeal
import proofs.«421169_j4887672783289_3_alg».proof.Proof.Gen.KernelIdeal.Frame
import proofs.«421169_j4887672783289_3_alg».proof.Proof.Gen.ReferenceIdeal
import proofs.«421169_j4887672783289_3_alg».proof.Proof.Gen.Pre_finite_inputs
import proofs.«421169_j4887672783289_3_alg».proof.Proof.PreFacts
import proofs.«421169_j4887672783289_3_alg».proof.Proof.KFinal
import proofs.«421169_j4887672783289_3_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.RefRun.run_stages m ρ)

theorem preserves : Cert.preserves_Kernel_KernelIdeal := trivial

/-- Both programs, from memories that agree on the arguments, end at the masked mean of the rows' losses. -/
theorem algebraic : Cert.algebraic_KernelIdeal_ReferenceIdeal := by
  intro m ρ m' ρ' hpre hagree
  have hf : ∀ c : Dev Cert.KernelIdeal.nD,
      Cert.Spec.AllReal (m ((c.tc : Thread Cert.KernelIdeal.nD Cert.KernelIdeal.τ).loc Cert.KernelIdeal.main_arg0)) ∧ Cert.Spec.AllReal (m ((c.tc : Thread Cert.KernelIdeal.nD Cert.KernelIdeal.τ).loc Cert.KernelIdeal.main_arg1))
        ∧ Cert.Spec.LabelsOk (m ((c.tc : Thread Cert.KernelIdeal.nD Cert.KernelIdeal.τ).loc Cert.KernelIdeal.main_arg2)) :=
    fun c => Cert.PreFacts.facts_of_pre _ _ _ (hpre c)
  refine ⟨fun c => Cert.Tail.maskedMean Cert.KernelIdeal.Facts₀.bcast_S_S8192 Cert.KernelIdeal.Facts₀.reducesTo_S8192_S_d0
      Cert.KernelIdeal.Facts₀.h_S_ Cert.KernelIdeal.Facts₀.natLt_1_32 (m ((c.tc : Thread Cert.KernelIdeal.nD Cert.KernelIdeal.τ).loc Cert.KernelIdeal.main_arg2))
      (fun i => Cert.Spec.rowLoss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (i 0)),
    Cert.KernelIdeal.Final.kernel_run m ρ (fun c => (hf c).1) (fun c => (hf c).2.1) (fun c => (hf c).2.2), ?_⟩
  refine (θ_run Cert.ReferenceIdeal.defs _ _).mono (fun _ h c => ⟨(h c).1.trans ?_, (h c).2⟩)
    (Cert.RefRead.ref_run m' ρ' (fun c => by rw [(hagree c).1]; exact (hf c).1) (fun c => by rw [(hagree c).2.1]; exact (hf c).2.1)
      (fun c => by rw [(hagree c).2.2]; exact (hf c).2.2))
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
